-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x400 : Shape := ⟨2, ![16384, 400]⟩
abbrev S16384x64 : Shape := ⟨2, ![16384, 64]⟩
abbrev S24x400 : Shape := ⟨2, ![24, 400]⟩
abbrev S24 : Shape := ⟨1, ![24]⟩
abbrev S24x24 : Shape := ⟨2, ![24, 24]⟩
abbrev S4096x24 : Shape := ⟨2, ![4096, 24]⟩
abbrev S4096 : Shape := ⟨1, ![4096]⟩
abbrev S_ : Shape := ⟨0, ![]⟩

class Facts : Prop where
  bcast_S_S16384x400 : S_.BroadcastsInDim S16384x400 (![] : Fin 0 → Fin S16384x400.rank)
  reducesTo_S16384x400_S_d0_1 : S16384x400.ReducesTo [0, 1] S_
  h_S_ : 0 < S_.numel
  bcast_S_S24x400 : S_.BroadcastsInDim S24x400 (![] : Fin 0 → Fin S24x400.rank)
  reducesTo_S24x400_S_d0_1 : S24x400.ReducesTo [0, 1] S_
  bcast_S_S24 : S_.BroadcastsInDim S24 (![] : Fin 0 → Fin S24.rank)
  reducesTo_S24_S_d0 : S24.ReducesTo [0] S_
  bcast_S_S24x24 : S_.BroadcastsInDim S24x24 (![] : Fin 0 → Fin S24x24.rank)
  reducesTo_S24x24_S_d0_1 : S24x24.ReducesTo [0, 1] S_
  bcast_S_S4096x24 : S_.BroadcastsInDim S4096x24 (![] : Fin 0 → Fin S4096x24.rank)
  reducesTo_S4096x24_S_d0_1 : S4096x24.ReducesTo [0, 1] S_
  bcast_S_S4096 : S_.BroadcastsInDim S4096 (![] : Fin 0 → Fin S4096.rank)
  reducesTo_S4096_S_d0 : S4096.ReducesTo [0] S_
  bcast_S_S16384x64 : S_.BroadcastsInDim S16384x64 (![] : Fin 0 → Fin S16384x64.rank)
  reducesTo_S16384x64_S_d0_1 : S16384x64.ReducesTo [0, 1] S_

variable [Facts]

def fn_part4 {F : FTy → Type} [FloatOps F] (main_arg1 : IVec S16384x64 32) (main_arg15 : FVec F S4096 .f32) (main_v63 : IVec S_ 1) (main_v67 : IVec S_ 1) : IVec S_ 1 :=
  let main_v68 : IVec S_ 1 := andi main_v63 main_v67
  let main_v69 : FVec F S4096 .f32 := Host.absf main_arg15
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_c_28 : IVec S_ 32 := constantI S_ 32 0#32
  let main_v74 : IVec S16384x64 32 := broadcastInDim S16384x64 ![] bcast_S_S16384x64 main_c_28
  let main_v75 : IVec S16384x64 1 := cmpi .sge main_arg1 main_v74
  let main_c_29 : IVec S_ 1 := constantI S_ 1 1#1
  let main_v76 : IVec S_ 1 := (fun x v => Host.reduce IntOp.andi x v reducesTo_S16384x64_S_d0_1 h_S_) main_v75 main_c_29
  let main_v77 : IVec S_ 1 := andi main_v73 main_v76
  main_v77

def fn_part3 {F : FTy → Type} [FloatOps F] (main_arg1 : IVec S16384x64 32) (main_arg12 : FVec F S4096x24 .f32) (main_arg13 : FVec F S4096 .f32) (main_arg14 : FVec F S4096x24 .f32) (main_arg15 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x24 .f32 := Host.absf main_arg12
  let main_cst_20 : FVec F S_ .f32 := constant S_ .f32 0x7F800000#32
  let main_v55 : FVec F S4096x24 .f32 := broadcastInDim S4096x24 ![] bcast_S_S4096x24 main_cst_20
  let main_v56 : IVec S4096x24 1 := cmpf .olt main_v54 main_v55
  let main_c_21 : IVec S_ 1 := constantI S_ 1 1#1
  let main_v57 : IVec S_ 1 := (fun x v => Host.reduce IntOp.andi x v reducesTo_S4096x24_S_d0_1 h_S_) main_v56 main_c_21
  let main_v58 : IVec S_ 1 := andi main_v53 main_v57
  let main_v59 : FVec F S4096 .f32 := Host.absf main_arg13
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x24 .f32 := Host.absf main_arg14
  let main_cst_24 : FVec F S_ .f32 := constant S_ .f32 0x7F800000#32
  let main_v65 : FVec F S4096x24 .f32 := broadcastInDim S4096x24 ![] bcast_S_S4096x24 main_cst_24
  let main_v66 : IVec S4096x24 1 := cmpf .olt main_v64 main_v65
  let main_c_25 : IVec S_ 1 := constantI S_ 1 1#1
  let main_v67 : IVec S_ 1 := (fun x v => Host.reduce IntOp.andi x v reducesTo_S4096x24_S_d0_1 h_S_) main_v66 main_c_25
  fn_part4 (F := F) main_arg1 main_arg15 main_v63 main_v67

def fn_part2 {F : FTy → Type} [FloatOps F] (main_arg1 : IVec S16384x64 32) (main_arg8 : FVec F S24x24 .f32) (main_arg9 : FVec F S24 .f32) (main_arg10 : FVec F S4096x24 .f32) (main_arg11 : FVec F S4096 .f32) (main_arg12 : FVec F S4096x24 .f32) (main_arg13 : FVec F S4096 .f32) (main_arg14 : FVec F S4096x24 .f32) (main_arg15 : FVec F S4096 .f32) (main_v33 : IVec S_ 1) : IVec S_ 1 :=
  let main_v34 : FVec F S24x24 .f32 := Host.absf main_arg8
  let main_cst_12 : FVec F S_ .f32 := constant S_ .f32 0x7F800000#32
  let main_v35 : FVec F S24x24 .f32 := broadcastInDim S24x24 ![] bcast_S_S24x24 main_cst_12
  let main_v36 : IVec S24x24 1 := cmpf .olt main_v34 main_v35
  let main_c_13 : IVec S_ 1 := constantI S_ 1 1#1
  let main_v37 : IVec S_ 1 := (fun x v => Host.reduce IntOp.andi x v reducesTo_S24x24_S_d0_1 h_S_) main_v36 main_c_13
  let main_v38 : IVec S_ 1 := andi main_v33 main_v37
  let main_v39 : FVec F S24 .f32 := Host.absf main_arg9
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S4096x24 .f32 := Host.absf main_arg10
  let main_cst_16 : FVec F S_ .f32 := constant S_ .f32 0x7F800000#32
  let main_v45 : FVec F S4096x24 .f32 := broadcastInDim S4096x24 ![] bcast_S_S4096x24 main_cst_16
  let main_v46 : IVec S4096x24 1 := cmpf .olt main_v44 main_v45
  let main_c_17 : IVec S_ 1 := constantI S_ 1 1#1
  let main_v47 : IVec S_ 1 := (fun x v => Host.reduce IntOp.andi x v reducesTo_S4096x24_S_d0_1 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg1 main_arg12 main_arg13 main_arg14 main_arg15 main_v48 main_v49 main_v50

def fn_part1 {F : FTy → Type} [FloatOps F] (main_arg1 : IVec S16384x64 32) (main_arg5 : FVec F S24 .f32) (main_arg6 : FVec F S24x24 .f32) (main_arg7 : FVec F S24 .f32) (main_arg8 : FVec F S24x24 .f32) (main_arg9 : FVec F S24 .f32) (main_arg10 : FVec F S4096x24 .f32) (main_arg11 : FVec F S4096 .f32) (main_arg12 : FVec F S4096x24 .f32) (main_arg13 : FVec F S4096 .f32) (main_arg14 : FVec F S4096x24 .f32) (main_arg15 : FVec F S4096 .f32) (main_v13 : IVec S_ 1) (main_v16 : IVec S24x24 1) : IVec S_ 1 :=
  let main_c_5 : IVec S_ 1 := constantI S_ 1 1#1
  let main_v17 : IVec S_ 1 := (fun x v => Host.reduce IntOp.andi x v reducesTo_S24x24_S_d0_1 h_S_) main_v16 main_c_5
  let main_v18 : IVec S_ 1 := andi main_v13 main_v17
  let main_v19 : FVec F S24 .f32 := Host.absf main_arg5
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S24x24 .f32 := Host.absf main_arg6
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S16384x400 .f32) (main_arg1 : IVec S16384x64 32) (main_arg2 : FVec F S24x400 .f32) (main_arg3 : FVec F S24 .f32) (main_arg4 : FVec F S24x24 .f32) (main_arg5 : FVec F S24 .f32) (main_arg6 : FVec F S24x24 .f32) (main_arg7 : FVec F S24 .f32) (main_arg8 : FVec F S24x24 .f32) (main_arg9 : FVec F S24 .f32) (main_arg10 : FVec F S4096x24 .f32) (main_arg11 : FVec F S4096 .f32) (main_arg12 : FVec F S4096x24 .f32) (main_arg13 : FVec F S4096 .f32) (main_arg14 : FVec F S4096x24 .f32) (main_arg15 : FVec F S4096 .f32) : IVec S_ 1 :=
  let main_v0 : FVec F S16384x400 .f32 := Host.absf main_arg0
  let main_cst : FVec F S_ .f32 := constant S_ .f32 0x7F800000#32
  let main_v1 : FVec F S16384x400 .f32 := broadcastInDim S16384x400 ![] bcast_S_S16384x400 main_cst
  let main_v2 : IVec S16384x400 1 := cmpf .olt main_v0 main_v1
  let main_c : IVec S_ 1 := constantI S_ 1 1#1
  let main_v3 : IVec S_ 1 := (fun x v => Host.reduce IntOp.andi x v reducesTo_S16384x400_S_d0_1 h_S_) main_v2 main_c
  let main_v4 : FVec F S24x400 .f32 := Host.absf main_arg2
  let main_cst_0 : FVec F S_ .f32 := constant S_ .f32 0x7F800000#32
  let main_v5 : FVec F S24x400 .f32 := broadcastInDim S24x400 ![] bcast_S_S24x400 main_cst_0
  let main_v6 : IVec S24x400 1 := cmpf .olt main_v4 main_v5
  let main_c_1 : IVec S_ 1 := constantI S_ 1 1#1
  let main_v7 : IVec S_ 1 := (fun x v => Host.reduce IntOp.andi x v reducesTo_S24x400_S_d0_1 h_S_) main_v6 main_c_1
  let main_v8 : IVec S_ 1 := andi main_v3 main_v7
  let main_v9 : FVec F S24 .f32 := Host.absf main_arg3
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x24 .f32 := Host.absf main_arg4
  let main_cst_4 : FVec F S_ .f32 := constant S_ .f32 0x7F800000#32
  let main_v15 : FVec F S24x24 .f32 := broadcastInDim S24x24 ![] bcast_S_S24x24 main_cst_4
  let main_v16 : IVec S24x24 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S16384x400 : Shape := ⟨2, ![16384, 400]⟩
abbrev S16384x64 : Shape := ⟨2, ![16384, 64]⟩
abbrev S24x400 : Shape := ⟨2, ![24, 400]⟩
abbrev S24 : Shape := ⟨1, ![24]⟩
abbrev S24x24 : Shape := ⟨2, ![24, 24]⟩
abbrev S4096x24 : Shape := ⟨2, ![4096, 24]⟩
abbrev S4096 : Shape := ⟨1, ![4096]⟩
abbrev S400x24 : Shape := ⟨2, ![400, 24]⟩
abbrev S1x24 : Shape := ⟨2, ![1, 24]⟩
abbrev S24x4096 : Shape := ⟨2, ![24, 4096]⟩
abbrev S1x4096 : Shape := ⟨2, ![1, 4096]⟩
abbrev S16384x4096 : Shape := ⟨2, ![16384, 4096]⟩
abbrev S256x400 : Shape := ⟨2, ![256, 400]⟩
abbrev S256x64 : Shape := ⟨2, ![256, 64]⟩
abbrev S256x4096 : Shape := ⟨2, ![256, 4096]⟩
abbrev S256x24 : Shape := ⟨2, ![256, 24]⟩
abbrev S256x1 : Shape := ⟨2, ![256, 1]⟩

abbrev nBuf : Space → Nat
  | .hbm => 31
  | .vmem => 13
  | .smem => 0
  | _ => 0

abbrev bufTy : (tb : Table) → Fin (tcTables nBuf tb) → BufTy
  | .hbm, ⟨0, _⟩ => ⟨S16384x400, .f32⟩
  | .hbm, ⟨1, _⟩ => ⟨S16384x64, .i32⟩
  | .hbm, ⟨2, _⟩ => ⟨S24x400, .f32⟩
  | .hbm, ⟨3, _⟩ => ⟨S24, .f32⟩
  | .hbm, ⟨4, _⟩ => ⟨S24x24, .f32⟩
  | .hbm, ⟨5, _⟩ => ⟨S24, .f32⟩
  | .hbm, ⟨6, _⟩ => ⟨S24x24, .f32⟩
  | .hbm, ⟨7, _⟩ => ⟨S24, .f32⟩
  | .hbm, ⟨8, _⟩ => ⟨S24x24, .f32⟩
  | .hbm, ⟨9, _⟩ => ⟨S24, .f32⟩
  | .hbm, ⟨10, _⟩ => ⟨S4096x24, .f32⟩
  | .hbm, ⟨11, _⟩ => ⟨S4096, .f32⟩
  | .hbm, ⟨12, _⟩ => ⟨S4096x24, .f32⟩
  | .hbm, ⟨13, _⟩ => ⟨S4096, .f32⟩
  | .hbm, ⟨14, _⟩ => ⟨S4096x24, .f32⟩
  | .hbm, ⟨15, _⟩ => ⟨S4096, .f32⟩
  | .hbm, ⟨16, _⟩ => ⟨S400x24, .f32⟩
  | .hbm, ⟨17, _⟩ => ⟨S1x24, .f32⟩
  | .hbm, ⟨18, _⟩ => ⟨S24x24, .f32⟩
  | .hbm, ⟨19, _⟩ => ⟨S24x24, .f32⟩
  | .hbm, ⟨20, _⟩ => ⟨S24x24, .f32⟩
  | .hbm, ⟨21, _⟩ => ⟨S24, .f32⟩
  | .hbm, ⟨22, _⟩ => ⟨S24, .f32⟩
  | .hbm, ⟨23, _⟩ => ⟨S1x24, .f32⟩
  | .hbm, ⟨24, _⟩ => ⟨S4096x24, .f32⟩
  | .hbm, ⟨25, _⟩ => ⟨S4096x24, .f32⟩
  | .hbm, ⟨26, _⟩ => ⟨S24x4096, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S16384x4096, .f32⟩
  | .local _ .vmem, ⟨0, _⟩ => ⟨S256x400, .f32⟩
  | .local _ .vmem, ⟨1, _⟩ => ⟨S256x400, .f32⟩
  | .local _ .vmem, ⟨2, _⟩ => ⟨S256x64, .i32⟩
  | .local _ .vmem, ⟨3, _⟩ => ⟨S256x64, .i32⟩
  | .local _ .vmem, ⟨4, _⟩ => ⟨S400x24, .f32⟩
  | .local _ .vmem, ⟨5, _⟩ => ⟨S1x24, .f32⟩
  | .local _ .vmem, ⟨6, _⟩ => ⟨S24x24, .f32⟩
  | .local _ .vmem, ⟨7, _⟩ => ⟨S1x24, .f32⟩
  | .local _ .vmem, ⟨8, _⟩ => ⟨S24x4096, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .i32⟩
  | _, _ => ⟨S16384x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S400x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S24x400_S400x24_1_0 : S24x400.Transposes [1, 0] S400x24
  shapeCasts_S24_S1x24 : S24.ShapeCasts S1x24
  transposes_S24x24_S24x24_1_0 : S24x24.Transposes [1, 0] S24x24
  transposes_S4096x24_S24x4096_1_0 : S4096x24.Transposes [1, 0] S24x4096
  shapeCasts_S4096_S1x4096 : S4096.ShapeCasts S1x4096
  inb_S256x400_S256x400_0_0 : ∀ a, (![0, 0] : Fin 2 → Nat) a + S256x400.size a ≤ S256x400.size a
  h_S256x400 : 0 < S256x400.numel
  inb_S400x24_S400x24_0_0 : ∀ a, (![0, 0] : Fin 2 → Nat) a + S400x24.size a ≤ S400x24.size a
  h_S400x24 : 0 < S400x24.numel
  shapeCasts_S400x24_S400x24 : S400x24.ShapeCasts S400x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S256x24 : S1x24.Broadcasts S256x24
  inb_S24x24_S24x24_0_0 : ∀ a, (![0, 0] : Fin 2 → Nat) a + S24x24.size a ≤ S24x24.size a
  h_S24x24 : 0 < S24x24.numel
  shapeCasts_S24x24_S24x24 : S24x24.ShapeCasts S24x24
  inb_S24x4096_S24x4096_0_0 : ∀ a, (![0, 0] : Fin 2 → Nat) a + S24x4096.size a ≤ S24x4096.size a
  h_S24x4096 : 0 < S24x4096.numel
  shapeCasts_S24x4096_S24x4096 : S24x4096.ShapeCasts S24x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  iota_S256x4096_d1_w32 : S256x4096.Iotas .tc 32 [1]
  inb_S256x64_S256x1_0_0 : ∀ a, (![0, 0] : Fin 2 → Nat) a + S256x1.size a ≤ S256x64.size a
  h_S256x1 : 0 < S256x1.numel
  broadcasts_S256x1_S256x4096 : S256x1.Broadcasts S256x4096
  natLt_1_32 : 1 < 32
  inb_S256x64_S256x1_0_1 : ∀ a, (![0, 1] : Fin 2 → Nat) a + S256x1.size a ≤ S256x64.size a
  inb_S256x64_S256x1_0_2 : ∀ a, (![0, 2] : Fin 2 → Nat) a + S256x1.size a ≤ S256x64.size a
  inb_S256x64_S256x1_0_3 : ∀ a, (![0, 3] : Fin 2 → Nat) a + S256x1.size a ≤ S256x64.size a
  inb_S256x64_S256x1_0_4 : ∀ a, (![0, 4] : Fin 2 → Nat) a + S256x1.size a ≤ S256x64.size a
  inb_S256x64_S256x1_0_5 : ∀ a, (![0, 5] : Fin 2 → Nat) a + S256x1.size a ≤ S256x64.size a
  inb_S256x64_S256x1_0_6 : ∀ a, (![0, 6] : Fin 2 → Nat) a + S256x1.size a ≤ S256x64.size a
  inb_S256x64_S256x1_0_7 : ∀ a, (![0, 7] : Fin 2 → Nat) a + S256x1.size a ≤ S256x64.size a
  inb_S256x64_S256x1_0_8 : ∀ a, (![0, 8] : Fin 2 → Nat) a + S256x1.size a ≤ S256x64.size a
  inb_S256x64_S256x1_0_9 : ∀ a, (![0, 9] : Fin 2 → Nat) a + S256x1.size a ≤ S256x64.size a
  inb_S256x64_S256x1_0_10 : ∀ a, (![0, 10] : Fin 2 → Nat) a + S256x1.size a ≤ S256x64.size a
  inb_S256x64_S256x1_0_11 : ∀ a, (![0, 11] : Fin 2 → Nat) a + S256x1.size a ≤ S256x64.size a
  inb_S256x64_S256x1_0_12 : ∀ a, (![0, 12] : Fin 2 → Nat) a + S256x1.size a ≤ S256x64.size a
  inb_S256x64_S256x1_0_13 : ∀ a, (![0, 13] : Fin 2 → Nat) a + S256x1.size a ≤ S256x64.size a
  inb_S256x64_S256x1_0_14 : ∀ a, (![0, 14] : Fin 2 → Nat) a + S256x1.size a ≤ S256x64.size a
  inb_S256x64_S256x1_0_15 : ∀ a, (![0, 15] : Fin 2 → Nat) a + S256x1.size a ≤ S256x64.size a
  inb_S256x64_S256x1_0_16 : ∀ a, (![0, 16] : Fin 2 → Nat) a + S256x1.size a ≤ S256x64.size a
  inb_S256x64_S256x1_0_17 : ∀ a, (![0, 17] : Fin 2 → Nat) a + S256x1.size a ≤ S256x64.size a
  inb_S256x64_S256x1_0_18 : ∀ a, (![0, 18] : Fin 2 → Nat) a + S256x1.size a ≤ S256x64.size a
  inb_S256x64_S256x1_0_19 : ∀ a, (![0, 19] : Fin 2 → Nat) a + S256x1.size a ≤ S256x64.size a
  inb_S256x64_S256x1_0_20 : ∀ a, (![0, 20] : Fin 2 → Nat) a + S256x1.size a ≤ S256x64.size a
  inb_S256x64_S256x1_0_21 : ∀ a, (![0, 21] : Fin 2 → Nat) a + S256x1.size a ≤ S256x64.size a
  inb_S256x64_S256x1_0_22 : ∀ a, (![0, 22] : Fin 2 → Nat) a + S256x1.size a ≤ S256x64.size a
  inb_S256x64_S256x1_0_23 : ∀ a, (![0, 23] : Fin 2 → Nat) a + S256x1.size a ≤ S256x64.size a
  inb_S256x64_S256x1_0_24 : ∀ a, (![0, 24] : Fin 2 → Nat) a + S256x1.size a ≤ S256x64.size a
  inb_S256x64_S256x1_0_25 : ∀ a, (![0, 25] : Fin 2 → Nat) a + S256x1.size a ≤ S256x64.size a
  inb_S256x64_S256x1_0_26 : ∀ a, (![0, 26] : Fin 2 → Nat) a + S256x1.size a ≤ S256x64.size a
  inb_S256x64_S256x1_0_27 : ∀ a, (![0, 27] : Fin 2 → Nat) a + S256x1.size a ≤ S256x64.size a
  inb_S256x64_S256x1_0_28 : ∀ a, (![0, 28] : Fin 2 → Nat) a + S256x1.size a ≤ S256x64.size a
  inb_S256x64_S256x1_0_29 : ∀ a, (![0, 29] : Fin 2 → Nat) a + S256x1.size a ≤ S256x64.size a
  inb_S256x64_S256x1_0_30 : ∀ a, (![0, 30] : Fin 2 → Nat) a + S256x1.size a ≤ S256x64.size a
  inb_S256x64_S256x1_0_31 : ∀ a, (![0, 31] : Fin 2 → Nat) a + S256x1.size a ≤ S256x64.size a
  inb_S256x64_S256x1_0_32 : ∀ a, (![0, 32] : Fin 2 → Nat) a + S256x1.size a ≤ S256x64.size a
  inb_S256x64_S256x1_0_33 : ∀ a, (![0, 33] : Fin 2 → Nat) a + S256x1.size a ≤ S256x64.size a
  inb_S256x64_S256x1_0_34 : ∀ a, (![0, 34] : Fin 2 → Nat) a + S256x1.size a ≤ S256x64.size a
  inb_S256x64_S256x1_0_35 : ∀ a, (![0, 35] : Fin 2 → Nat) a + S256x1.size a ≤ S256x64.size a
  inb_S256x64_S256x1_0_36 : ∀ a, (![0, 36] : Fin 2 → Nat) a + S256x1.size a ≤ S256x64.size a
  inb_S256x64_S256x1_0_37 : ∀ a, (![0, 37] : Fin 2 → Nat) a + S256x1.size a ≤ S256x64.size a
  inb_S256x64_S256x1_0_38 : ∀ a, (![0, 38] : Fin 2 → Nat) a + S256x1.size a ≤ S256x64.size a
  inb_S256x64_S256x1_0_39 : ∀ a, (![0, 39] : Fin 2 → Nat) a + S256x1.size a ≤ S256x64.size a
  inb_S256x64_S256x1_0_40 : ∀ a, (![0, 40] : Fin 2 → Nat) a + S256x1.size a ≤ S256x64.size a
  inb_S256x64_S256x1_0_41 : ∀ a, (![0, 41] : Fin 2 → Nat) a + S256x1.size a ≤ S256x64.size a
  inb_S256x64_S256x1_0_42 : ∀ a, (![0, 42] : Fin 2 → Nat) a + S256x1.size a ≤ S256x64.size a
  inb_S256x64_S256x1_0_43 : ∀ a, (![0, 43] : Fin 2 → Nat) a + S256x1.size a ≤ S256x64.size a
  inb_S256x64_S256x1_0_44 : ∀ a, (![0, 44] : Fin 2 → Nat) a + S256x1.size a ≤ S256x64.size a
  inb_S256x64_S256x1_0_45 : ∀ a, (![0, 45] : Fin 2 → Nat) a + S256x1.size a ≤ S256x64.size a
  inb_S256x64_S256x1_0_46 : ∀ a, (![0, 46] : Fin 2 → Nat) a + S256x1.size a ≤ S256x64.size a
  inb_S256x64_S256x1_0_47 : ∀ a, (![0, 47] : Fin 2 → Nat) a + S256x1.size a ≤ S256x64.size a
  inb_S256x64_S256x1_0_48 : ∀ a, (![0, 48] : Fin 2 → Nat) a + S256x1.size a ≤ S256x64.size a
  inb_S256x64_S256x1_0_49 : ∀ a, (![0, 49] : Fin 2 → Nat) a + S256x1.size a ≤ S256x64.size a
  inb_S256x64_S256x1_0_50 : ∀ a, (![0, 50] : Fin 2 → Nat) a + S256x1.size a ≤ S256x64.size a
  inb_S256x64_S256x1_0_51 : ∀ a, (![0, 51] : Fin 2 → Nat) a + S256x1.size a ≤ S256x64.size a
  inb_S256x64_S256x1_0_52 : ∀ a, (![0, 52] : Fin 2 → Nat) a + S256x1.size a ≤ S256x64.size a
  inb_S256x64_S256x1_0_53 : ∀ a, (![0, 53] : Fin 2 → Nat) a + S256x1.size a ≤ S256x64.size a
  inb_S256x64_S256x1_0_54 : ∀ a, (![0, 54] : Fin 2 → Nat) a + S256x1.size a ≤ S256x64.size a
  inb_S256x64_S256x1_0_55 : ∀ a, (![0, 55] : Fin 2 → Nat) a + S256x1.size a ≤ S256x64.size a
  inb_S256x64_S256x1_0_56 : ∀ a, (![0, 56] : Fin 2 → Nat) a + S256x1.size a ≤ S256x64.size a
  inb_S256x64_S256x1_0_57 : ∀ a, (![0, 57] : Fin 2 → Nat) a + S256x1.size a ≤ S256x64.size a
  inb_S256x64_S256x1_0_58 : ∀ a, (![0, 58] : Fin 2 → Nat) a + S256x1.size a ≤ S256x64.size a
  inb_S256x64_S256x1_0_59 : ∀ a, (![0, 59] : Fin 2 → Nat) a + S256x1.size a ≤ S256x64.size a
  inb_S256x64_S256x1_0_60 : ∀ a, (![0, 60] : Fin 2 → Nat) a + S256x1.size a ≤ S256x64.size a
  inb_S256x64_S256x1_0_61 : ∀ a, (![0, 61] : Fin 2 → Nat) a + S256x1.size a ≤ S256x64.size a
  inb_S256x64_S256x1_0_62 : ∀ a, (![0, 62] : Fin 2 → Nat) a + S256x1.size a ≤ S256x64.size a
  inb_S256x64_S256x1_0_63 : ∀ a, (![0, 63] : Fin 2 → Nat) a + S256x1.size a ≤ S256x64.size a
  dot_S256x400_S400x24_S256x24_1_0_0_1_n_n_wf : DotDims.WF S256x400 S400x24 S256x24 [1] [0] [0] [1] [] []
  dot_S256x24_S24x24_S256x24_1_0_0_1_n_n_wf : DotDims.WF S256x24 S24x24 S256x24 [1] [0] [0] [1] [] []
  dot_S256x24_S24x4096_S256x4096_1_0_0_1_n_n_wf : DotDims.WF S256x24 S24x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x400.size a ≤ S16384x400.size a
  hwx0_0 : ∀ i : grid0.Coords, EltTy.bits .f32 = 32 ∨ (Rect.block (s := S16384x400) S256x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .i32 = 32 ∨ (Rect.block (s := S16384x64) S256x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x24.size a ≤ S400x24.size a
  hwx0_2 : ∀ i : grid0.Coords, EltTy.bits .f32 = 32 ∨ (Rect.block (s := S400x24) S400x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x24.size a ≤ S1x24.size a
  hwx0_3 : ∀ i : grid0.Coords, EltTy.bits .f32 = 32 ∨ (Rect.block (s := S1x24) S1x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x24.size a ≤ S24x24.size a
  hwx0_4 : ∀ i : grid0.Coords, EltTy.bits .f32 = 32 ∨ (Rect.block (s := S24x24) S24x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x24.size a ≤ S1x24.size a
  hwx0_5 : ∀ i : grid0.Coords, EltTy.bits .f32 = 32 ∨ (Rect.block (s := S1x24) S1x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x4096.size a ≤ S24x4096.size a
  hwx0_6 : ∀ i : grid0.Coords, EltTy.bits .f32 = 32 ∨ (Rect.block (s := S24x4096) S24x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4096.size a ≤ S16384x4096.size a
  hwx0_8 : ∀ i : grid0.Coords, EltTy.bits .f32 = 32 ∨ (Rect.block (s := S16384x4096) S256x4096.size (cc0_transform_8 i) (hinb0_8 i)).WholeWords (EltTy.packing .f32)

variable [Facts₀]

def dot_S256x400_S400x24_S256x24_1_0_0_1_n_n : DotDims S256x400 S400x24 S256x24 where
  lhsContracting := [1]
  rhsContracting := [0]
  lhsNonContracting := [0]
  rhsNonContracting := [1]
  lhsBatch := []
  rhsBatch := []
  wf := dot_S256x400_S400x24_S256x24_1_0_0_1_n_n_wf
def dot_S256x24_S24x24_S256x24_1_0_0_1_n_n : DotDims S256x24 S24x24 S256x24 where
  lhsContracting := [1]
  rhsContracting := [0]
  lhsNonContracting := [0]
  rhsNonContracting := [1]
  lhsBatch := []
  rhsBatch := []
  wf := dot_S256x24_S24x24_S256x24_1_0_0_1_n_n_wf
def dot_S256x24_S24x4096_S256x4096_1_0_0_1_n_n : DotDims S256x24 S24x4096 S256x4096 where
  lhsContracting := [1]
  rhsContracting := [0]
  lhsNonContracting := [0]
  rhsNonContracting := [1]
  lhsBatch := []
  rhsBatch := []
  wf := dot_S256x24_S24x4096_S256x4096_1_0_0_1_n_n_wf

abbrev win0_0 : Pipeline.Window sig grid0 :=
  Pipeline.Window.ofSpec (Memref.whole main_arg0) S256x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S24x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S24x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S256x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x400 : Shape := ⟨2, ![16384, 400]⟩
abbrev S16384x64 : Shape := ⟨2, ![16384, 64]⟩
abbrev S24x400 : Shape := ⟨2, ![24, 400]⟩
abbrev S24 : Shape := ⟨1, ![24]⟩
abbrev S24x24 : Shape := ⟨2, ![24, 24]⟩
abbrev S4096x24 : Shape := ⟨2, ![4096, 24]⟩
abbrev S4096 : Shape := ⟨1, ![4096]⟩
abbrev S400x24 : Shape := ⟨2, ![400, 24]⟩
abbrev S16384x24 : Shape := ⟨2, ![16384, 24]⟩
abbrev S1x24 : Shape := ⟨2, ![1, 24]⟩
abbrev S_ : Shape := ⟨0, ![]⟩
abbrev S24x4096 : Shape := ⟨2, ![24, 4096]⟩
abbrev S16384x4096 : Shape := ⟨2, ![16384, 4096]⟩
abbrev S1x4096 : Shape := ⟨2, ![1, 4096]⟩
abbrev S16384 : Shape := ⟨1, ![16384]⟩
abbrev S16384x1 : Shape := ⟨2, ![16384, 1]⟩
abbrev S16384x64x1 : Shape := ⟨3, ![16384, 64, 1]⟩
abbrev S16384x64x2 : Shape := ⟨3, ![16384, 64, 2]⟩

abbrev nBuf : Space → Nat
  | .hbm => 78
  | .vmem => 0
  | .smem => 0
  | _ => 0

abbrev bufTy : (tb : Table) → Fin (tcTables nBuf tb) → BufTy
  | .hbm, ⟨0, _⟩ => ⟨S16384x400, .f32⟩
  | .hbm, ⟨1, _⟩ => ⟨S16384x64, .i32⟩
  | .hbm, ⟨2, _⟩ => ⟨S24x400, .f32⟩
  | .hbm, ⟨3, _⟩ => ⟨S24, .f32⟩
  | .hbm, ⟨4, _⟩ => ⟨S24x24, .f32⟩
  | .hbm, ⟨5, _⟩ => ⟨S24, .f32⟩
  | .hbm, ⟨6, _⟩ => ⟨S24x24, .f32⟩
  | .hbm, ⟨7, _⟩ => ⟨S24, .f32⟩
  | .hbm, ⟨8, _⟩ => ⟨S24x24, .f32⟩
  | .hbm, ⟨9, _⟩ => ⟨S24, .f32⟩
  | .hbm, ⟨10, _⟩ => ⟨S4096x24, .f32⟩
  | .hbm, ⟨11, _⟩ => ⟨S4096, .f32⟩
  | .hbm, ⟨12, _⟩ => ⟨S4096x24, .f32⟩
  | .hbm, ⟨13, _⟩ => ⟨S4096, .f32⟩
  | .hbm, ⟨14, _⟩ => ⟨S4096x24, .f32⟩
  | .hbm, ⟨15, _⟩ => ⟨S4096, .f32⟩
  | .hbm, ⟨16, _⟩ => ⟨S400x24, .f32⟩
  | .hbm, ⟨17, _⟩ => ⟨S16384x24, .f32⟩
  | .hbm, ⟨18, _⟩ => ⟨S1x24, .f32⟩
  | .hbm, ⟨19, _⟩ => ⟨S16384x24, .f32⟩
  | .hbm, ⟨20, _⟩ => ⟨S16384x24, .f32⟩
  | .hbm, ⟨21, _⟩ => ⟨S_, .f32⟩
  | .hbm, ⟨22, _⟩ => ⟨S16384x24, .f32⟩
  | .hbm, ⟨23, _⟩ => ⟨S16384x24, .f32⟩
  | .hbm, ⟨24, _⟩ => ⟨S24x24, .f32⟩
  | .hbm, ⟨25, _⟩ => ⟨S24x24, .f32⟩
  | .hbm, ⟨26, _⟩ => ⟨S24x24, .f32⟩
  | .hbm, ⟨27, _⟩ => ⟨S16384x24, .f32⟩
  | .hbm, ⟨28, _⟩ => ⟨S24, .f32⟩
  | .hbm, ⟨29, _⟩ => ⟨S24, .f32⟩
  | .hbm, ⟨30, _⟩ => ⟨S1x24, .f32⟩
  | .hbm, ⟨31, _⟩ => ⟨S16384x24, .f32⟩
  | .hbm, ⟨32, _⟩ => ⟨S16384x24, .f32⟩
  | .hbm, ⟨33, _⟩ => ⟨S_, .f32⟩
  | .hbm, ⟨34, _⟩ => ⟨S16384x24, .f32⟩
  | .hbm, ⟨35, _⟩ => ⟨S16384x24, .f32⟩
  | .hbm, ⟨36, _⟩ => ⟨S4096x24, .f32⟩
  | .hbm, ⟨37, _⟩ => ⟨S4096x24, .f32⟩
  | .hbm, ⟨38, _⟩ => ⟨S24x4096, .f32⟩
  | .hbm, ⟨39, _⟩ => ⟨S16384x4096, .f32⟩
  | .hbm, ⟨40, _⟩ => ⟨S4096, .f32⟩
  | .hbm, ⟨41, _⟩ => ⟨S4096, .f32⟩
  | .hbm, ⟨42, _⟩ => ⟨S1x4096, .f32⟩
  | .hbm, ⟨43, _⟩ => ⟨S16384x4096, .f32⟩
  | .hbm, ⟨44, _⟩ => ⟨S16384x4096, .f32⟩
  | .hbm, ⟨45, _⟩ => ⟨S16384, .i32⟩
  | .hbm, ⟨46, _⟩ => ⟨S16384x1, .i32⟩
  | .hbm, ⟨47, _⟩ => ⟨S_, .f32⟩
  | .hbm, ⟨48, _⟩ => ⟨S16384x4096, .f32⟩
  | .hbm, ⟨49, _⟩ => ⟨S_, .i32⟩
  | .hbm, ⟨50, _⟩ => ⟨S16384x1, .i32⟩
  | .hbm, ⟨51, _⟩ => ⟨S16384x1, .i1⟩
  | .hbm, ⟨52, _⟩ => ⟨S_, .i32⟩
  | .hbm, ⟨53, _⟩ => ⟨S16384x1, .i32⟩
  | .hbm, ⟨54, _⟩ => ⟨S16384x1, .i32⟩
  | .hbm, ⟨55, _⟩ => ⟨S16384x1, .i32⟩
  | .hbm, ⟨56, _⟩ => ⟨S_, .i32⟩
  | .hbm, ⟨57, _⟩ => ⟨S16384x64, .i32⟩
  | .hbm, ⟨58, _⟩ => ⟨S16384x64, .i1⟩
  | .hbm, ⟨59, _⟩ => ⟨S_, .i32⟩
  | .hbm, ⟨60, _⟩ => ⟨S16384x64, .i32⟩
  | .hbm, ⟨61, _⟩ => ⟨S16384x64, .i32⟩
  | .hbm, ⟨62, _⟩ => ⟨S16384x64, .i32⟩
  | .hbm, ⟨63, _⟩ => ⟨S16384x64, .i32⟩
  | .hbm, ⟨64, _⟩ => ⟨S16384x64x1, .i32⟩
  | .hbm, ⟨65, _⟩ => ⟨S16384x64x1, .i32⟩
  | .hbm, ⟨66, _⟩ => ⟨S16384x64x2, .i32⟩
  | .hbm, ⟨67, _⟩ => ⟨S_, .f32⟩
  | .hbm, ⟨68, _⟩ => ⟨S16384x64, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S16384x4096, .f32⟩
  | .hbm, ⟨73, _⟩ => ⟨S16384x4096, .i1⟩
  | .hbm, ⟨74, _⟩ => ⟨S_, .f32⟩
  | .hbm, ⟨75, _⟩ => ⟨S_, .f32⟩
  | .hbm, ⟨76, _⟩ => ⟨S16384x4096, .f32⟩
  | .hbm, ⟨77, _⟩ => ⟨S16384x4096, .f32⟩
  | _, _ => ⟨S16384x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_cst : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_1 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_call2_v0 : Ref sig .tc := ⟨.hbm, 75, rfl⟩
abbrev main_call2_v1 : Ref sig .tc := ⟨.hbm, 76, rfl⟩
abbrev main_v47 : Ref sig .tc := ⟨.hbm, 77, rfl⟩

abbrev nD : Nat := 1
abbrev τ : Topo := Topo.v7x

variable {F : FTy → Type} [FloatOps F]

class Facts₀ : Prop where
  transposes_S24x400_S400x24_1_0 : S24x400.Transposes [1, 0] S400x24
  bcast_S24_S1x24_1 : S24.BroadcastsInDim S1x24 (![1] : Fin 1 → Fin S1x24.rank)
  bcast_S1x24_S16384x24_0_1 : S1x24.BroadcastsInDim S16384x24 (![0, 1] : Fin 2 → Fin S16384x24.rank)
  bcast_S_S16384x24 : S_.BroadcastsInDim S16384x24 (![] : Fin 0 → Fin S16384x24.rank)
  transposes_S24x24_S24x24_1_0 : S24x24.Transposes [1, 0] S24x24
  transposes_S4096x24_S24x4096_1_0 : S4096x24.Transposes [1, 0] S24x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S16384_S16384x1_0 : S16384.BroadcastsInDim S16384x1 (![0] : Fin 1 → Fin S16384x1.rank)
  bcast_S_S16384x4096 : S_.BroadcastsInDim S16384x4096 (![] : Fin 0 → Fin S16384x4096.rank)
  bcast_S_S16384x1 : S_.BroadcastsInDim S16384x1 (![] : Fin 0 → Fin S16384x1.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  dot_S16384x400_S400x24_S16384x24_1_0_0_1_n_n_wf : DotDims.WF S16384x400 S400x24 S16384x24 [1] [0] [0] [1] [] []
  dot_S16384x24_S24x24_S16384x24_1_0_0_1_n_n_wf : DotDims.WF S16384x24 S24x24 S16384x24 [1] [0] [0] [1] [] []
  dot_S16384x24_S24x4096_S16384x4096_1_0_0_1_n_n_wf : DotDims.WF S16384x24 S24x4096 S16384x4096 [1] [0] [0] [1] [] []
  scatter_S16384x4096_S16384x64x2_S16384x64_n_01_01_2_wf : ScatterDims.WF S16384x4096 S16384x64x2 S16384x64 [] [0, 1] [0, 1] 2

variable [Facts₀]

def dot_S16384x400_S400x24_S16384x24_1_0_0_1_n_n : DotDims S16384x400 S400x24 S16384x24 where
  lhsContracting := [1]
  rhsContracting := [0]
  lhsNonContracting := [0]
  rhsNonContracting := [1]
  lhsBatch := []
  rhsBatch := []
  wf := dot_S16384x400_S400x24_S16384x24_1_0_0_1_n_n_wf
def dot_S16384x24_S24x24_S16384x24_1_0_0_1_n_n : DotDims S16384x24 S24x24 S16384x24 where
  lhsContracting := [1]
  rhsContracting := [0]
  lhsNonContracting := [0]
  rhsNonContracting := [1]
  lhsBatch := []
  rhsBatch := []
  wf := dot_S16384x24_S24x24_S16384x24_1_0_0_1_n_n_wf
def dot_S16384x24_S24x4096_S16384x4096_1_0_0_1_n_n : DotDims S16384x24 S24x4096 S16384x4096 where
  lhsContracting := [1]
  rhsContracting := [0]
  lhsNonContracting := [0]
  rhsNonContracting := [1]
  lhsBatch := []
  rhsBatch := []
  wf := dot_S16384x24_S24x4096_S16384x4096_1_0_0_1_n_n_wf
def scatter_S16384x4096_S16384x64x2_S16384x64_n_01_01_2 : ScatterDims S16384x4096 S16384x64x2 S16384x64 where
  updateWindowDims := []
  insertedWindowDims := [0, 1]
  scatterDimsToOperandDims := [0, 1]
  indexVectorDim := 2
  wf := scatter_S16384x4096_S16384x64x2_S16384x64_n_01_01_2_wf

class Facts : Prop extends Facts₀ where

variable [Facts]
-- ==== Proof.Spec.lean ====
/-
  The function both programs compute, stated once over the sixteen argument arrays.

  A three-layer perceptron on each of the 16384 rows of `x`: two hidden layers of width 24 with a rectifier, and
  4096 output logits; the second and third layers' weights and biases are "noisy": `mu + sigma * eps`, entry by
  entry. Row `n` comes with 64 move indices `possible_moves[n, ·]`; column `q` of the row is LEGAL when one of them
  is `q`. The result keeps a logit where the column is legal and the logit is not zero, and is `-∞` elsewhere:
  the logit is multiplied by the 0/1 legality mask, and a product that is exactly `0` becomes `-∞`.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![16384, 400]⟩
abbrev SPm : Shape := ⟨2, ![16384, 64]⟩
abbrev SW1 : Shape := ⟨2, ![24, 400]⟩
abbrev SB : Shape := ⟨1, ![24]⟩
abbrev SW2 : Shape := ⟨2, ![24, 24]⟩
abbrev SW3 : Shape := ⟨2, ![4096, 24]⟩
abbrev SB3 : Shape := ⟨1, ![4096]⟩
abbrev SOut : Shape := ⟨2, ![16384, 4096]⟩

/-- The weights of the network, as the sixteen arguments give them (all but `x` and `possible_moves`). -/
structure Params where
  W1 : SW1.Idx → EReal
  b1 : SB.Idx → EReal
  mu_w2 : SW2.Idx → EReal
  mu_b2 : SB.Idx → EReal
  sigma_w2 : SW2.Idx → EReal
  sigma_b2 : SB.Idx → EReal
  eps_w2 : SW2.Idx → EReal
  eps_b2 : SB.Idx → EReal
  mu_w3 : SW3.Idx → EReal
  mu_b3 : SB3.Idx → EReal
  sigma_w3 : SW3.Idx → EReal
  sigma_b3 : SB3.Idx → EReal
  eps_w3 : SW3.Idx → EReal
  eps_b3 : SB3.Idx → EReal

variable (P : Params)

/-- Entry `(k, j)` of the second layer's noisy weight matrix `mu_w2 + sigma_w2 * eps_w2`. -/
def w2 (k j : Fin 24) : EReal := P.mu_w2 (ix2 k j) + P.sigma_w2 (ix2 k j) * P.eps_w2 (ix2 k j)
/-- Entry `k` of the second layer's noisy bias. -/
def b2 (k : Fin 24) : EReal := P.mu_b2 (ix1 k) + P.sigma_b2 (ix1 k) * P.eps_b2 (ix1 k)
/-- Entry `(q, k)` of the third layer's noisy weight matrix. -/
def w3 (q : Fin 4096) (k : Fin 24) : EReal := P.mu_w3 (ix2 q k) + P.sigma_w3 (ix2 q k) * P.eps_w3 (ix2 q k)
/-- Entry `q` of the third layer's noisy bias. -/
def b3 (q : Fin 4096) : EReal := P.mu_b3 (ix1 q) + P.sigma_b3 (ix1 q) * P.eps_b3 (ix1 q)

/-- The first hidden layer on one row `xr` of `x`: `relu (xr · W1[j, ·] + b1[j])`. -/
def hid1 (xr : Fin 400 → EReal) (j : Fin 24) : EReal :=
  max ((∑ i : Fin 400, xr i * P.W1 (ix2 j i)) + P.b1 (ix1 j)) 0
/-- The second hidden layer on that row. -/
def hid2 (xr : Fin 400 → EReal) (k : Fin 24) : EReal :=
  max ((∑ j : Fin 24, hid1 P xr j * w2 P k j) + b2 P k) 0
/-- The row's logit for column `q`. -/
def logit (xr : Fin 400 → EReal) (q : Fin 4096) : EReal :=
  (∑ k : Fin 24, hid2 P xr k * w3 P q k) + b3 P q

/-- Column `q` is a legal move of row `n`: one of the row's 64 move indices, read as a signed integer, is `q`. -/
def legal (pm : SPm.Idx → BitVec 32) (n : Fin 16384) (q : Fin 4096) : Prop :=
  ∃ k : Fin 64, (pm (ix2 n k)).toInt = (q.val : Int)

/-- The 0/1 legality mask as an extended real. -/
def maskVal (pm : SPm.Idx → BitVec 32) (n : Fin 16384) (q : Fin 4096) : EReal :=
  open Classical in if legal pm n q then 1 else 0

/-- A logit `l` under a mask value `mk`: the product, with an exact zero replaced by `-∞` (written with the float
    comparison and select of the two programs, and with their two literals: the zero word and the word of `-∞`). -/
def combine (l mk : EReal) : EReal :=
  Scalar.select (FloatOps.cmpf (F := Ideal) (φ := .f32) .oeq (l * mk) (Ideal.ofBits .f32 0x00000000#32))
    (Ideal.ofBits .f32 0xFF800000#32) (l * mk)

/-- THE RESULT, index by index. -/
def out (x : SX.Idx → EReal) (pm : SPm.Idx → BitVec 32) : SOut.Idx → EReal := fun i =>
  combine (logit P (fun a => x (ix2 (i 0) a)) (i 1)) (maskVal pm (i 0) (i 1))

end Cert.Spec

end
-- ==== Proof.LogitsKernel.lean ====
/-
  The kernel's logits, read at an index.

  On a block of 256 rows the kernel's body forms, from the row block `x` and the six weight and bias blocks it has
  loaded, `relu (relu (x · A₁ + c₁) · A₂ + c₂) · A₃ + c₃`: three matrix products into zero accumulators, the bias rows
  `[1, n]` broadcast over the 256 rows, and the rectifier as a maximum against a broadcast zero. Read at the index
  `(p, q)` this is the specification's `logit` of row `p` of the block at column `q`, when the loaded blocks hold
  the network's weights (the first layer's weight block is the transpose of `W1`; the second and third the transposes
  of the noisy weight matrices).
-/
import proofs.«429774_j24103356465499_1_alg».proof.Proof.Gen.KernelIdeal.Skeleton
import proofs.«429774_j24103356465499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.LogitsK

open Cert.KernelIdeal Cert.KernelIdeal.Gen Idealize.ShloMosaic Idealize.ShloMosaic.ValueIdx

variable [Cert.KernelIdeal.Facts]

/-! ## The first product: `[256, 400] × [400, 24]` -/

/-- On the left operand's row axis the operand index is the output's row. -/
theorem lhs_mm1_0 (i : S256x24.Idx) (q : dot_S256x400_S400x24_S256x24_1_0_0_1_n_n.contr.Idx) :
    (dot_S256x400_S400x24_S256x24_1_0_0_1_n_n.lhsIdx i q 0).val = (i 0).val := by
  unfold DotDims.lhsIdx
  rw [dif_neg (show ¬(0 : Fin S256x400.rank) ∈ dot_S256x400_S400x24_S256x24_1_0_0_1_n_n.lhsBatch by decide), dif_pos (show (0 : Fin S256x400.rank) ∈ dot_S256x400_S400x24_S256x24_1_0_0_1_n_n.lhsNonContracting by decide)]
  rfl
/-- On the left operand's column axis it is the contraction position. -/
theorem lhs_mm1_1 (i : S256x24.Idx) (q : dot_S256x400_S400x24_S256x24_1_0_0_1_n_n.contr.Idx) :
    (dot_S256x400_S400x24_S256x24_1_0_0_1_n_n.lhsIdx i q 1).val = (q ⟨0, by decide⟩).val :=
  dot_S256x400_S400x24_S256x24_1_0_0_1_n_n.lhsIdx_val_of_single rfl i q
/-- On the right operand's row axis it is the contraction position. -/
theorem rhs_mm1_0 (i : S256x24.Idx) (q : dot_S256x400_S400x24_S256x24_1_0_0_1_n_n.contr.Idx) :
    (dot_S256x400_S400x24_S256x24_1_0_0_1_n_n.rhsIdx i q 0).val = (q ⟨0, by decide⟩).val :=
  dot_S256x400_S400x24_S256x24_1_0_0_1_n_n.rhsIdx_val_of_single rfl i q
/-- On the right operand's column axis it is the output's column. -/
theorem rhs_mm1_1 (i : S256x24.Idx) (q : dot_S256x400_S400x24_S256x24_1_0_0_1_n_n.contr.Idx) :
    (dot_S256x400_S400x24_S256x24_1_0_0_1_n_n.rhsIdx i q 1).val = (i 1).val := by
  unfold DotDims.rhsIdx
  rw [dif_neg (show ¬(1 : Fin S400x24.rank) ∈ dot_S256x400_S400x24_S256x24_1_0_0_1_n_n.rhsBatch by decide), dif_pos (show (1 : Fin S400x24.rank) ∈ dot_S256x400_S400x24_S256x24_1_0_0_1_n_n.rhsNonContracting by decide)]
  rfl

/-- The product into the zero accumulator, at `(p, j)`: the sum over the 400 contraction positions of row `p` of the
    left operand times column `j` of the right. -/
theorem mm1_apply (a : FVec Ideal S256x400 .f32) (b : FVec Ideal S400x24 .f32) (p : Fin 256) (j : Fin 24) :
    matmul dot_S256x400_S400x24_S256x24_1_0_0_1_n_n none a b (constant (F := Ideal) S256x24 .f32 0x00000000#32) (ix2 p j)
      = ∑ k : Fin 400, a (ix2 p k) * b (ix2 k j) := by
  simp only [matmul]
  rw [Ideal.matmul_constant_zero_apply, ← Equiv.sum_comp (contrEquiv1 dot_S256x400_S400x24_S256x24_1_0_0_1_n_n 400 rfl rfl).symm]
  refine Finset.sum_congr rfl fun k _ => ?_
  have hk := contrEquiv1_symm_val dot_S256x400_S400x24_S256x24_1_0_0_1_n_n 400 rfl rfl k
  have el : dot_S256x400_S400x24_S256x24_1_0_0_1_n_n.lhsIdx (ix2 p j) ((contrEquiv1 dot_S256x400_S400x24_S256x24_1_0_0_1_n_n 400 rfl rfl).symm k) = ix2 p k := funext fun ax => Fin.ext (by
    match ax with
    | ⟨0, _⟩ => exact lhs_mm1_0 _ _
    | ⟨1, _⟩ => exact (lhs_mm1_1 _ _).trans hk)
  have er : dot_S256x400_S400x24_S256x24_1_0_0_1_n_n.rhsIdx (ix2 p j) ((contrEquiv1 dot_S256x400_S400x24_S256x24_1_0_0_1_n_n 400 rfl rfl).symm k) = ix2 k j := funext fun ax => Fin.ext (by
    match ax with
    | ⟨0, _⟩ => exact (rhs_mm1_0 _ _).trans hk
    | ⟨1, _⟩ => exact rhs_mm1_1 _ _)
  rw [el, er]

/-! ## The second product: `[256, 24] × [24, 24]` -/

/-- On the left operand's row axis the operand index is the output's row. -/
theorem lhs_mm2_0 (i : S256x24.Idx) (q : dot_S256x24_S24x24_S256x24_1_0_0_1_n_n.contr.Idx) :
    (dot_S256x24_S24x24_S256x24_1_0_0_1_n_n.lhsIdx i q 0).val = (i 0).val := by
  unfold DotDims.lhsIdx
  rw [dif_neg (show ¬(0 : Fin S256x24.rank) ∈ dot_S256x24_S24x24_S256x24_1_0_0_1_n_n.lhsBatch by decide), dif_pos (show (0 : Fin S256x24.rank) ∈ dot_S256x24_S24x24_S256x24_1_0_0_1_n_n.lhsNonContracting by decide)]
  rfl
/-- On the left operand's column axis it is the contraction position. -/
theorem lhs_mm2_1 (i : S256x24.Idx) (q : dot_S256x24_S24x24_S256x24_1_0_0_1_n_n.contr.Idx) :
    (dot_S256x24_S24x24_S256x24_1_0_0_1_n_n.lhsIdx i q 1).val = (q ⟨0, by decide⟩).val :=
  dot_S256x24_S24x24_S256x24_1_0_0_1_n_n.lhsIdx_val_of_single rfl i q
/-- On the right operand's row axis it is the contraction position. -/
theorem rhs_mm2_0 (i : S256x24.Idx) (q : dot_S256x24_S24x24_S256x24_1_0_0_1_n_n.contr.Idx) :
    (dot_S256x24_S24x24_S256x24_1_0_0_1_n_n.rhsIdx i q 0).val = (q ⟨0, by decide⟩).val :=
  dot_S256x24_S24x24_S256x24_1_0_0_1_n_n.rhsIdx_val_of_single rfl i q
/-- On the right operand's column axis it is the output's column. -/
theorem rhs_mm2_1 (i : S256x24.Idx) (q : dot_S256x24_S24x24_S256x24_1_0_0_1_n_n.contr.Idx) :
    (dot_S256x24_S24x24_S256x24_1_0_0_1_n_n.rhsIdx i q 1).val = (i 1).val := by
  unfold DotDims.rhsIdx
  rw [dif_neg (show ¬(1 : Fin S24x24.rank) ∈ dot_S256x24_S24x24_S256x24_1_0_0_1_n_n.rhsBatch by decide), dif_pos (show (1 : Fin S24x24.rank) ∈ dot_S256x24_S24x24_S256x24_1_0_0_1_n_n.rhsNonContracting by decide)]
  rfl

/-- The product into the zero accumulator, at `(p, j)`: the sum over the 24 contraction positions of row `p` of the
    left operand times column `j` of the right. -/
theorem mm2_apply (a : FVec Ideal S256x24 .f32) (b : FVec Ideal S24x24 .f32) (p : Fin 256) (j : Fin 24) :
    matmul dot_S256x24_S24x24_S256x24_1_0_0_1_n_n none a b (constant (F := Ideal) S256x24 .f32 0x00000000#32) (ix2 p j)
      = ∑ k : Fin 24, a (ix2 p k) * b (ix2 k j) := by
  simp only [matmul]
  rw [Ideal.matmul_constant_zero_apply, ← Equiv.sum_comp (contrEquiv1 dot_S256x24_S24x24_S256x24_1_0_0_1_n_n 24 rfl rfl).symm]
  refine Finset.sum_congr rfl fun k _ => ?_
  have hk := contrEquiv1_symm_val dot_S256x24_S24x24_S256x24_1_0_0_1_n_n 24 rfl rfl k
  have el : dot_S256x24_S24x24_S256x24_1_0_0_1_n_n.lhsIdx (ix2 p j) ((contrEquiv1 dot_S256x24_S24x24_S256x24_1_0_0_1_n_n 24 rfl rfl).symm k) = ix2 p k := funext fun ax => Fin.ext (by
    match ax with
    | ⟨0, _⟩ => exact lhs_mm2_0 _ _
    | ⟨1, _⟩ => exact (lhs_mm2_1 _ _).trans hk)
  have er : dot_S256x24_S24x24_S256x24_1_0_0_1_n_n.rhsIdx (ix2 p j) ((contrEquiv1 dot_S256x24_S24x24_S256x24_1_0_0_1_n_n 24 rfl rfl).symm k) = ix2 k j := funext fun ax => Fin.ext (by
    match ax with
    | ⟨0, _⟩ => exact (rhs_mm2_0 _ _).trans hk
    | ⟨1, _⟩ => exact rhs_mm2_1 _ _)
  rw [el, er]

/-! ## The third product: `[256, 24] × [24, 4096]` -/

/-- On the left operand's row axis the operand index is the output's row. -/
theorem lhs_mm3_0 (i : S256x4096.Idx) (q : dot_S256x24_S24x4096_S256x4096_1_0_0_1_n_n.contr.Idx) :
    (dot_S256x24_S24x4096_S256x4096_1_0_0_1_n_n.lhsIdx i q 0).val = (i 0).val := by
  unfold DotDims.lhsIdx
  rw [dif_neg (show ¬(0 : Fin S256x24.rank) ∈ dot_S256x24_S24x4096_S256x4096_1_0_0_1_n_n.lhsBatch by decide), dif_pos (show (0 : Fin S256x24.rank) ∈ dot_S256x24_S24x4096_S256x4096_1_0_0_1_n_n.lhsNonContracting by decide)]
  rfl
/-- On the left operand's column axis it is the contraction position. -/
theorem lhs_mm3_1 (i : S256x4096.Idx) (q : dot_S256x24_S24x4096_S256x4096_1_0_0_1_n_n.contr.Idx) :
    (dot_S256x24_S24x4096_S256x4096_1_0_0_1_n_n.lhsIdx i q 1).val = (q ⟨0, by decide⟩).val :=
  dot_S256x24_S24x4096_S256x4096_1_0_0_1_n_n.lhsIdx_val_of_single rfl i q
/-- On the right operand's row axis it is the contraction position. -/
theorem rhs_mm3_0 (i : S256x4096.Idx) (q : dot_S256x24_S24x4096_S256x4096_1_0_0_1_n_n.contr.Idx) :
    (dot_S256x24_S24x4096_S256x4096_1_0_0_1_n_n.rhsIdx i q 0).val = (q ⟨0, by decide⟩).val :=
  dot_S256x24_S24x4096_S256x4096_1_0_0_1_n_n.rhsIdx_val_of_single rfl i q
/-- On the right operand's column axis it is the output's column. -/
theorem rhs_mm3_1 (i : S256x4096.Idx) (q : dot_S256x24_S24x4096_S256x4096_1_0_0_1_n_n.contr.Idx) :
    (dot_S256x24_S24x4096_S256x4096_1_0_0_1_n_n.rhsIdx i q 1).val = (i 1).val := by
  unfold DotDims.rhsIdx
  rw [dif_neg (show ¬(1 : Fin S24x4096.rank) ∈ dot_S256x24_S24x4096_S256x4096_1_0_0_1_n_n.rhsBatch by decide), dif_pos (show (1 : Fin S24x4096.rank) ∈ dot_S256x24_S24x4096_S256x4096_1_0_0_1_n_n.rhsNonContracting by decide)]
  rfl

/-- The product into the zero accumulator, at `(p, j)`: the sum over the 24 contraction positions of row `p` of the
    left operand times column `j` of the right. -/
theorem mm3_apply (a : FVec Ideal S256x24 .f32) (b : FVec Ideal S24x4096 .f32) (p : Fin 256) (j : Fin 4096) :
    matmul dot_S256x24_S24x4096_S256x4096_1_0_0_1_n_n none a b (constant (F := Ideal) S256x4096 .f32 0x00000000#32) (ix2 p j)
      = ∑ k : Fin 24, a (ix2 p k) * b (ix2 k j) := by
  simp only [matmul]
  rw [Ideal.matmul_constant_zero_apply, ← Equiv.sum_comp (contrEquiv1 dot_S256x24_S24x4096_S256x4096_1_0_0_1_n_n 24 rfl rfl).symm]
  refine Finset.sum_congr rfl fun k _ => ?_
  have hk := contrEquiv1_symm_val dot_S256x24_S24x4096_S256x4096_1_0_0_1_n_n 24 rfl rfl k
  have el : dot_S256x24_S24x4096_S256x4096_1_0_0_1_n_n.lhsIdx (ix2 p j) ((contrEquiv1 dot_S256x24_S24x4096_S256x4096_1_0_0_1_n_n 24 rfl rfl).symm k) = ix2 p k := funext fun ax => Fin.ext (by
    match ax with
    | ⟨0, _⟩ => exact lhs_mm3_0 _ _
    | ⟨1, _⟩ => exact (lhs_mm3_1 _ _).trans hk)
  have er : dot_S256x24_S24x4096_S256x4096_1_0_0_1_n_n.rhsIdx (ix2 p j) ((contrEquiv1 dot_S256x24_S24x4096_S256x4096_1_0_0_1_n_n 24 rfl rfl).symm k) = ix2 k j := funext fun ax => Fin.ext (by
    match ax with
    | ⟨0, _⟩ => exact (rhs_mm3_0 _ _).trans hk
    | ⟨1, _⟩ => exact rhs_mm3_1 _ _)
  rw [el, er]

/-! ## The layers

Each same-shape `shape_cast` is the identity; a bias row `[1, n]` broadcast over the rows reads its one row; the
rectifier's zero is the extended real `0`. -/

/-- The first hidden layer at `(p, j)`: `max (∑ i, x[p, i] * A[i, j] + c[0, j]) 0`. -/
theorem hidA_apply (x : FVec Ideal S256x400 .f32) (A : FVec Ideal S400x24 .f32) (c : FVec Ideal S1x24 .f32)
    (p : Fin 256) (j : Fin 24) :
    maximumf
        (addf (matmul dot_S256x400_S400x24_S256x24_1_0_0_1_n_n none x (shapeCast S400x24 A shapeCasts_S400x24_S400x24)
            (constant (F := Ideal) S256x24 .f32 0x00000000#32))
          (broadcastTo S256x24 (shapeCast S1x24 c shapeCasts_S1x24_S1x24) broadcasts_S1x24_S256x24))
        (broadcast S256x24 (Scalar.ofBits (F := Ideal) .f32 0x00000000#32)) (ix2 p j)
      = max ((∑ i : Fin 400, x (ix2 p i) * A (ix2 i j)) + c (ix2 (0 : Fin 1) j)) 0 := by
  rw [shapeCast_self, shapeCast_self, maximumf_apply, addf_apply, broadcast_apply, mm1_apply, broadcastTo_1b_ab_apply]
  exact congrArg (max _) Ideal.ofBits_zero_f32

/-- The second hidden layer at `(p, k)`, over any first hidden block `h`. -/
theorem hidB_apply (h : FVec Ideal S256x24 .f32) (A : FVec Ideal S24x24 .f32) (c : FVec Ideal S1x24 .f32)
    (p : Fin 256) (k : Fin 24) :
    maximumf
        (addf (matmul dot_S256x24_S24x24_S256x24_1_0_0_1_n_n none h (shapeCast S24x24 A shapeCasts_S24x24_S24x24)
            (constant (F := Ideal) S256x24 .f32 0x00000000#32))
          (broadcastTo S256x24 (shapeCast S1x24 c shapeCasts_S1x24_S1x24) broadcasts_S1x24_S256x24))
        (broadcast S256x24 (Scalar.ofBits (F := Ideal) .f32 0x00000000#32)) (ix2 p k)
      = max ((∑ j : Fin 24, h (ix2 p j) * A (ix2 j k)) + c (ix2 (0 : Fin 1) k)) 0 := by
  rw [shapeCast_self, shapeCast_self, maximumf_apply, addf_apply, broadcast_apply, mm2_apply, broadcastTo_1b_ab_apply]
  exact congrArg (max _) Ideal.ofBits_zero_f32

/-- The output layer at `(p, q)`, over any second hidden block `h`. -/
theorem outC_apply (h : FVec Ideal S256x24 .f32) (A : FVec Ideal S24x4096 .f32) (c : FVec Ideal S1x4096 .f32)
    (p : Fin 256) (q : Fin 4096) :
    addf (matmul dot_S256x24_S24x4096_S256x4096_1_0_0_1_n_n none h (shapeCast S24x4096 A shapeCasts_S24x4096_S24x4096)
          (constant (F := Ideal) S256x4096 .f32 0x00000000#32))
        (broadcastTo S256x4096 (shapeCast S1x4096 c shapeCasts_S1x4096_S1x4096) broadcasts_S1x4096_S256x4096) (ix2 p q)
      = (∑ k : Fin 24, h (ix2 p k) * A (ix2 k q)) + c (ix2 (0 : Fin 1) q) := by
  rw [shapeCast_self, shapeCast_self, addf_apply, mm3_apply, broadcastTo_1b_ab_apply]

/-! ## The payload -/

/-- The kernel's logits block at `(p, q)` is the specification's logit of row `p` of the block at column `q`, when
    the loaded weight blocks are the transposes of the network's weight matrices and the loaded bias rows its biases. -/
theorem pay3_apply (P : Cert.Spec.Params)
    (x0 : Vec Ideal S256x400 .f32) (x2 : Vec Ideal S400x24 .f32) (x3 : Vec Ideal S1x24 .f32) (x4 : Vec Ideal S24x24 .f32)
    (x5 : Vec Ideal S1x24 .f32) (x6 : Vec Ideal S24x4096 .f32) (x7 : Vec Ideal S1x4096 .f32)
    (h2 : ∀ (i : Fin 400) (j : Fin 24), x2 (ix2 i j) = P.W1 (ix2 j i))
    (h3 : ∀ j : Fin 24, x3 (ix2 (0 : Fin 1) j) = P.b1 (ix1 j))
    (h4 : ∀ j k : Fin 24, x4 (ix2 j k) = Cert.Spec.w2 P k j)
    (h5 : ∀ k : Fin 24, x5 (ix2 (0 : Fin 1) k) = Cert.Spec.b2 P k)
    (h6 : ∀ (k : Fin 24) (q : Fin 4096), x6 (ix2 k q) = Cert.Spec.w3 P q k)
    (h7 : ∀ q : Fin 4096, x7 (ix2 (0 : Fin 1) q) = Cert.Spec.b3 P q)
    (p : Fin 256) (q : Fin 4096) :
    k0_pay3 (F := Ideal) x0 x2 x3 x4 x5 x6 x7 (ix2 p q) = Cert.Spec.logit P (fun a => x0 (ix2 p a)) q := by
  unfold k0_pay3
  refine (outC_apply _ x6 x7 p q).trans ?_
  unfold Cert.Spec.logit
  rw [h7]
  refine congrArg (· + _) (Finset.sum_congr rfl fun k _ => ?_)
  rw [h6]
  refine congrArg (· * _) ?_
  refine (hidB_apply _ x4 x5 p k).trans ?_
  unfold Cert.Spec.hid2
  rw [h5]
  refine congrArg (fun t => max (t + _) 0) (Finset.sum_congr rfl fun j _ => ?_)
  rw [h4]
  refine congrArg (· * _) ?_
  refine (hidA_apply x0 x2 x3 p j).trans ?_
  unfold Cert.Spec.hid1
  rw [h3]
  refine congrArg (fun t => max (t + _) 0) (Finset.sum_congr rfl fun i _ => ?_)
  rw [h2]

end Cert.KernelIdeal.LogitsK

end
-- ==== Proof.KernelBlocks.lean ====
/-
  What each input window's block holds at a grid point, read off the argument arrays.

  The grid has 64 points. At point `t` the window of `x` holds rows `256 t … 256 t + 255` of `x`, the window of
  `possible_moves` the same rows of it; the six parameter windows hold their whole arrays at every point, and those
  arrays are what the host operations before the region wrote: the transpose of `W1`, `b1` as a row, the transposes
  of the noisy weight matrices `mu + sigma * eps` of the second and third layers, and their noisy biases as rows.
-/
import proofs.«429774_j24103356465499_1_alg».proof.Proof.Gen.KernelIdeal.Frame
import proofs.«429774_j24103356465499_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.BlocksK

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The network's parameters as the memory holds them on device `c`. -/
def prm (c : Dev nD) : Cert.Spec.Params :=
  ⟨m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

/-- The array `x` on device `c`. -/
abbrev xarr (c : Dev nD) : Cert.Spec.SX.Idx → EReal := m ((c : Thread nD τ).loc main_arg0)
/-- The array `possible_moves` on device `c`. -/
abbrev pmarr (c : Dev nD) : Cert.Spec.SPm.Idx → BitVec 32 := m ((c : Thread nD τ).loc main_arg1)

/-- The eight input blocks at point `t`, each at its literal type. -/
abbrev blk0 (c : Dev nD) (t : Fin cfg0.N) : Vec Ideal S256x400 .f32 := iblk m c 0 t
abbrev blk1 (c : Dev nD) (t : Fin cfg0.N) : Vec Ideal S256x64 .i32 := iblk m c 1 t
abbrev blk2 (c : Dev nD) (t : Fin cfg0.N) : Vec Ideal S400x24 .f32 := iblk m c 2 t
abbrev blk3 (c : Dev nD) (t : Fin cfg0.N) : Vec Ideal S1x24 .f32 := iblk m c 3 t
abbrev blk4 (c : Dev nD) (t : Fin cfg0.N) : Vec Ideal S24x24 .f32 := iblk m c 4 t
abbrev blk5 (c : Dev nD) (t : Fin cfg0.N) : Vec Ideal S1x24 .f32 := iblk m c 5 t
abbrev blk6 (c : Dev nD) (t : Fin cfg0.N) : Vec Ideal S24x4096 .f32 := iblk m c 6 t
abbrev blk7 (c : Dev nD) (t : Fin cfg0.N) : Vec Ideal S1x4096 .f32 := iblk m c 7 t

/-- The array row of local row `p` of block `t`. -/
def rowOf (t : Fin cfg0.N) (p : Fin 256) : Fin 16384 :=
  ⟨256 * t.val + p.val, by have := t.isLt; have hN : cfg0.N = 64 := N_0; omega⟩

/-- The printed index maps of the two row windows, decided over the grid: block `t` of rows, the one block of columns. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Block `t` of `x` at `(p, a)` is `x` at row `256 t + p`, column `a`. -/
theorem blk0_apply (c : Dev nD) (t : Fin cfg0.N) (p : Fin 256) (a : Fin 400) :
    blk0 m c t (ix2 p a) = xarr m c (ix2 (rowOf t p) a) := by
  show V m c main_arg0 (((cfg0.win 0).blk t).view.emb (ix2 p a)) = _
  rw [V_main_arg0]
  obtain ⟨e0, e1, -, -⟩ := idx_rows t
  refine congrArg _ (funext fun ax => Fin.ext ?_)
  match ax with
  | ⟨0, _⟩ => show win0_0.index t (0 : Fin 2) * 256 + 1 * p.val = 256 * t.val + p.val; omega
  | ⟨1, _⟩ => show win0_0.index t (1 : Fin 2) * 400 + 1 * a.val = a.val; omega

/-- Block `t` of `possible_moves` at `(p, k)` is the array at row `256 t + p`, column `k`. -/
theorem blk1_apply (c : Dev nD) (t : Fin cfg0.N) (p : Fin 256) (k : Fin 64) :
    blk1 m c t (ix2 p k) = pmarr m c (ix2 (rowOf t p) k) := by
  show V m c main_arg1 (((cfg0.win 1).blk t).view.emb (ix2 p k)) = _
  rw [V_main_arg1]
  obtain ⟨-, -, e0, e1⟩ := idx_rows t
  refine congrArg _ (funext fun ax => Fin.ext ?_)
  match ax with
  | ⟨0, _⟩ => show win0_1.index t (0 : Fin 2) * 256 + 1 * p.val = 256 * t.val + p.val; omega
  | ⟨1, _⟩ => show win0_1.index t (1 : Fin 2) * 64 + 1 * k.val = k.val; omega

/-! ## The parameter arrays as the region finds them: what the host operations before it wrote -/

/-- The first layer's weight array handed to the region is the transpose of `W1`. -/
theorem v0_eq (c : Dev nD) : (V m c main_v0 : S400x24.Idx → EReal)
    = transpose S400x24 [1, 0] (m ((c : Thread nD τ).loc main_arg2)) transposes_S24x400_S400x24_1_0 := by
  dsimp only [Gen.V, Gen.hostOps0]
  after_results

/-- The first layer's bias handed to the region is `b1` as a row. -/
theorem v1_eq (c : Dev nD) : (V m c main_v1 : S1x24.Idx → EReal)
    = shapeCast S1x24 (m ((c : Thread nD τ).loc main_arg3)) shapeCasts_S24_S1x24 := by
  dsimp only [Gen.V, Gen.hostOps0]
  after_results
  rfl

/-- The second layer's weight array handed to the region is the transpose of `mu_w2 + sigma_w2 * eps_w2`. -/
theorem v4_eq (c : Dev nD) : (V m c main_v4 : S24x24.Idx → EReal)
    = transpose S24x24 [1, 0] (addf (F := Ideal) (φ := .f32) (m ((c : Thread nD τ).loc main_arg4)) (mulf (F := Ideal) (φ := .f32) (m ((c : Thread nD τ).loc main_arg6)) (m ((c : Thread nD τ).loc main_arg8)))) transposes_S24x24_S24x24_1_0 := by
  dsimp only [Gen.V, Gen.hostOps0]
  after_results

/-- The second layer's bias handed to the region is `mu_b2 + sigma_b2 * eps_b2` as a row. -/
theorem v7_eq (c : Dev nD) : (V m c main_v7 : S1x24.Idx → EReal)
    = shapeCast S1x24 (addf (F := Ideal) (φ := .f32) (m ((c : Thread nD τ).loc main_arg5)) (mulf (F := Ideal) (φ := .f32) (m ((c : Thread nD τ).loc main_arg7)) (m ((c : Thread nD τ).loc main_arg9)))) shapeCasts_S24_S1x24 := by
  dsimp only [Gen.V, Gen.hostOps0]
  after_results
  rfl

/-- The third layer's weight array handed to the region is the transpose of `mu_w3 + sigma_w3 * eps_w3`. -/
theorem v10_eq (c : Dev nD) : (V m c main_v10 : S24x4096.Idx → EReal)
    = transpose S24x4096 [1, 0] (addf (F := Ideal) (φ := .f32) (m ((c : Thread nD τ).loc main_arg10)) (mulf (F := Ideal) (φ := .f32) (m ((c : Thread nD τ).loc main_arg12)) (m ((c : Thread nD τ).loc main_arg14)))) transposes_S4096x24_S24x4096_1_0 := by
  dsimp only [Gen.V, Gen.hostOps0]
  after_results

/-- The third layer's bias handed to the region is `mu_b3 + sigma_b3 * eps_b3` as a row. -/
theorem v13_eq (c : Dev nD) : (V m c main_v13 : S1x4096.Idx → EReal)
    = shapeCast S1x4096 (addf (F := Ideal) (φ := .f32) (m ((c : Thread nD τ).loc main_arg11)) (mulf (F := Ideal) (φ := .f32) (m ((c : Thread nD τ).loc main_arg13)) (m ((c : Thread nD τ).loc main_arg15)))) shapeCasts_S4096_S1x4096 := by
  dsimp only [Gen.V, Gen.hostOps0]
  after_results
  rfl

/-! ## The six parameter blocks -/

/-- The printed index maps of the six parameter windows, decided over the grid: the one block, at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The first layer's weight block at `(i, j)` is `W1` at `(j, i)`. -/
theorem blk2_apply (c : Dev nD) (t : Fin cfg0.N) (i : Fin 400) (j : Fin 24) :
    blk2 m c t (ix2 i j) = (prm m c).W1 (ix2 j i) := by
  show V m c main_v0 (((cfg0.win 2).blk t).view.emb (ix2 i j)) = _
  obtain ⟨e0, e1, -⟩ := idx_whole t
  have e : ((cfg0.win 2).blk t).view.emb (ix2 i j) = ix2 i j := funext fun ax => Fin.ext (by
    match ax with
    | ⟨0, _⟩ => show win0_2.index t (0 : Fin 2) * 400 + 1 * i.val = i.val; omega
    | ⟨1, _⟩ => show win0_2.index t (1 : Fin 2) * 24 + 1 * j.val = j.val; omega)
  rw [e]
  exact (congrFun (v0_eq m c) (ix2 i j)).trans (transpose_ix2_apply _ _ i j)

/-- The first layer's bias block at `(0, j)` is `b1` at `j`. -/
theorem blk3_apply (c : Dev nD) (t : Fin cfg0.N) (j : Fin 24) :
    blk3 m c t (ix2 (0 : Fin 1) j) = (prm m c).b1 (ix1 j) := by
  show V m c main_v1 (((cfg0.win 3).blk t).view.emb (ix2 (0 : Fin 1) j)) = _
  obtain ⟨-, -, e0, e1, -⟩ := idx_whole t
  have e : ((cfg0.win 3).blk t).view.emb (ix2 (0 : Fin 1) j) = ix2 (0 : Fin 1) j := funext fun ax => Fin.ext (by
    match ax with
    | ⟨0, _⟩ => show win0_3.index t (0 : Fin 2) * 1 + 1 * (0 : Fin 1).val = (0 : Fin 1).val; omega
    | ⟨1, _⟩ => show win0_3.index t (1 : Fin 2) * 24 + 1 * j.val = j.val; omega)
  rw [e]
  exact (congrFun (v1_eq m c) (ix2 (0 : Fin 1) j)).trans (shapeCast_a_1a_apply _ _ (0 : Fin 1) j)

/-- The second layer's weight block at `(j, k)` is the noisy weight `w2` at `(k, j)`. -/
theorem blk4_apply (c : Dev nD) (t : Fin cfg0.N) (j k : Fin 24) :
    blk4 m c t (ix2 j k) = Cert.Spec.w2 (prm m c) k j := by
  show V m c main_v4 (((cfg0.win 4).blk t).view.emb (ix2 j k)) = _
  obtain ⟨-, -, -, -, e0, e1, -⟩ := idx_whole t
  have e : ((cfg0.win 4).blk t).view.emb (ix2 j k) = ix2 j k := funext fun ax => Fin.ext (by
    match ax with
    | ⟨0, _⟩ => show win0_4.index t (0 : Fin 2) * 24 + 1 * j.val = j.val; omega
    | ⟨1, _⟩ => show win0_4.index t (1 : Fin 2) * 24 + 1 * k.val = k.val; omega)
  rw [e]
  exact (congrFun (v4_eq m c) (ix2 j k)).trans (transpose_ix2_apply _ _ j k)

/-- The second layer's bias block at `(0, k)` is the noisy bias `b2` at `k`. -/
theorem blk5_apply (c : Dev nD) (t : Fin cfg0.N) (k : Fin 24) :
    blk5 m c t (ix2 (0 : Fin 1) k) = Cert.Spec.b2 (prm m c) k := by
  show V m c main_v7 (((cfg0.win 5).blk t).view.emb (ix2 (0 : Fin 1) k)) = _
  obtain ⟨-, -, -, -, -, -, e0, e1, -⟩ := idx_whole t
  have e : ((cfg0.win 5).blk t).view.emb (ix2 (0 : Fin 1) k) = ix2 (0 : Fin 1) k := funext fun ax => Fin.ext (by
    match ax with
    | ⟨0, _⟩ => show win0_5.index t (0 : Fin 2) * 1 + 1 * (0 : Fin 1).val = (0 : Fin 1).val; omega
    | ⟨1, _⟩ => show win0_5.index t (1 : Fin 2) * 24 + 1 * k.val = k.val; omega)
  rw [e]
  exact (congrFun (v7_eq m c) (ix2 (0 : Fin 1) k)).trans (shapeCast_a_1a_apply _ _ (0 : Fin 1) k)

/-- The third layer's weight block at `(k, q)` is the noisy weight `w3` at `(q, k)`. -/
theorem blk6_apply (c : Dev nD) (t : Fin cfg0.N) (k : Fin 24) (q : Fin 4096) :
    blk6 m c t (ix2 k q) = Cert.Spec.w3 (prm m c) q k := by
  show V m c main_v10 (((cfg0.win 6).blk t).view.emb (ix2 k q)) = _
  obtain ⟨-, -, -, -, -, -, -, -, e0, e1, -⟩ := idx_whole t
  have e : ((cfg0.win 6).blk t).view.emb (ix2 k q) = ix2 k q := funext fun ax => Fin.ext (by
    match ax with
    | ⟨0, _⟩ => show win0_6.index t (0 : Fin 2) * 24 + 1 * k.val = k.val; omega
    | ⟨1, _⟩ => show win0_6.index t (1 : Fin 2) * 4096 + 1 * q.val = q.val; omega)
  rw [e]
  exact (congrFun (v10_eq m c) (ix2 k q)).trans (transpose_ix2_apply _ _ k q)

/-- The third layer's bias block at `(0, q)` is the noisy bias `b3` at `q`. -/
theorem blk7_apply (c : Dev nD) (t : Fin cfg0.N) (q : Fin 4096) :
    blk7 m c t (ix2 (0 : Fin 1) q) = Cert.Spec.b3 (prm m c) q := by
  show V m c main_v13 (((cfg0.win 7).blk t).view.emb (ix2 (0 : Fin 1) q)) = _
  obtain ⟨-, -, -, -, -, -, -, -, -, -, e0, e1⟩ := idx_whole t
  have e : ((cfg0.win 7).blk t).view.emb (ix2 (0 : Fin 1) q) = ix2 (0 : Fin 1) q := funext fun ax => Fin.ext (by
    match ax with
    | ⟨0, _⟩ => show win0_7.index t (0 : Fin 2) * 1 + 1 * (0 : Fin 1).val = (0 : Fin 1).val; omega
    | ⟨1, _⟩ => show win0_7.index t (1 : Fin 2) * 4096 + 1 * q.val = q.val; omega)
  rw [e]
  exact (congrFun (v13_eq m c) (ix2 (0 : Fin 1) q)).trans (shapeCast_a_1a_apply _ _ (0 : Fin 1) q)

end Cert.KernelIdeal.BlocksK

end
-- ==== Proof.KernelArray.lean ====
/-
  From the 64 blocks the kernel writes back to its whole result array.

  The result array has 16384 rows of 4096 columns; grid point t writes back rows 256 t … 256 t + 255, all columns.
  If what each point writes is the restriction to its rows of ONE function G of the array's indices, the array the run
  leaves is G: row r lies in the block of point r / 256, so the blocks cover the array, and on the rows two blocks
  could share (there are none) both would write G.
-/
import proofs.«429774_j24103356465499_1_alg».proof.Proof.Gen.KernelIdeal.Value
import Idealize.ShloMosaic.Lib.Pipeline.Value
import Idealize.ShloMosaic.Lib.ValueIdx

noncomputable section

namespace Cert.KernelIdeal.ArrayK
open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The array row of local row p of block t. -/
def rowOf (t : Fin cfg0.N) (p : Fin 256) : Fin 16384 :=
  ⟨256 * t.val + p.val, by have := t.isLt; have hN : cfg0.N = 64 := N_0; omega⟩

/-- The result's block index at grid point t is (t, 0): decided once over the 64 points. -/
theorem block_index : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- WHAT POINT t WRITES BACK is block t of G: local row p, column q of the block is the array's row 256 t + p,
    column q. -/
theorem flushed_eq (c : Dev nD) (G : S16384x4096.Idx → EReal)
    (hpt : ∀ (t : Fin cfg0.N) (p : Fin 256) (q : Fin 4096), outsAt0 m c t (ix2 p q) = G (ix2 (rowOf t p) q))
    (t : Fin cfg0.N) :
    (dats m 0 c).flushed 8 t = ((cfg0.win 8).blk t).view.read (Elt Ideal) G := by
  rw [Value.flushed8]
  funext j
  have hj0 : (j 0).val < 256 := (j 0).isLt
  have hj1 : (j 1).val < 4096 := (j 1).isLt
  obtain ⟨e0, e1⟩ := block_index t
  show outsAt0 m c t ((cfg0.win 8).xinj (grid0.coords t) j) = G (((cfg0.win 8).blk t).view.emb j)
  have hin : (cfg0.win 8).xinj (grid0.coords t) j = ix2 (⟨(j 0).val, hj0⟩ : Fin 256) (⟨(j 1).val, hj1⟩ : Fin 4096) := by
    funext a
    match a with
    | ⟨0, _⟩ => rfl
    | ⟨1, _⟩ => rfl
  have hout : ((cfg0.win 8).blk t).view.emb j = ix2 (rowOf t ⟨(j 0).val, hj0⟩) (⟨(j 1).val, hj1⟩ : Fin 4096) := by
    funext a; apply Fin.ext
    match a with
    | ⟨0, _⟩ => show win0_8.index t (0 : Fin 2) * 256 + 1 * (j 0).val = 256 * t.val + (j 0).val; omega
    | ⟨1, _⟩ => show win0_8.index t (1 : Fin 2) * 4096 + 1 * (j 1).val = (j 1).val; omega
  rw [hin, hout]
  exact hpt t _ _

/-- An index of the array is in point t's block iff each coordinate is in the block's range on its axis. -/
theorem mem_blk (t : Fin cfg0.N) (i : S16384x4096.Idx) :
    i ∈ ((cfg0.win 8).blk t).view.set ↔ ∀ a : Fin 2, win0_8.index t a * S256x4096.size a ≤ (i a).val
      ∧ (i a).val < win0_8.index t a * S256x4096.size a + S256x4096.size a := by
  show i ∈ ((View.whole main_v14).slice (win0_8.rect t)).set ↔ _
  rw [View.set_slice_whole, Rect.mem_set_unit]
  exact Iff.rfl

/-- THE BLOCKS COVER THE ARRAY: row r lies in the block of point r / 256. -/
theorem cover (i : S16384x4096.Idx) :
    ∃ t : Fin cfg0.N, (cfg0.win 8).flush t = true ∧ i ∈ ((cfg0.win 8).blk t).view.set := by
  have hi0 : (i 0).val < 16384 := (i 0).isLt
  have hi1 : (i 1).val < 4096 := (i 1).isLt
  have hN : cfg0.N = 64 := N_0
  have ht : (i 0).val / 256 < cfg0.N := by omega
  refine ⟨⟨(i 0).val / 256, ht⟩, flush0_8 _, ?_⟩
  rw [mem_blk]
  obtain ⟨e0, e1⟩ := block_index ⟨(i 0).val / 256, ht⟩
  intro a
  match a with
  | ⟨0, _⟩ =>
    show win0_8.index ⟨(i 0).val / 256, ht⟩ (0 : Fin 2) * 256 ≤ (i 0).val
      ∧ (i 0).val < win0_8.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, ht⟩ (1 : Fin 2) * 4096 ≤ (i 1).val
      ∧ (i 1).val < win0_8.index ⟨(i 0).val / 256, ht⟩ (1 : Fin 2) * 4096 + 4096
    rw [e1]; omega

/-- THE ARRAY after the run is G. -/
theorem final8 (c : Dev nD) (G : S16384x4096.Idx → EReal)
    (hpt : ∀ (t : Fin cfg0.N) (p : Fin 256) (q : Fin 4096), outsAt0 m c t (ix2 p q) = G (ix2 (rowOf t p) q)) :
    (dats m 0 c).arrAt 8 cfg0.N = G :=
  (dats m 0 c).arrAt_eq_of_cover 8 G (fun t _ => flushed_eq m c G hpt t) cover

end Cert.KernelIdeal.ArrayK

end
-- ==== Proof.KernelMask.lean ====
/-
  The kernel's legality mask, read off its run.

  On a block of 256 rows the kernel keeps a 256 × 4096 scratch of 32-bit words: it stores zeros, then, for each of the
  64 columns `k` of the block's move indices in turn, reads the scratch back, takes the signed maximum with the word
  `[column index = move index (row, k)]` (one or zero), and stores the result. So after the 64 passes the word at
  `(p, q)` is one exactly when some move index of row `p` is the word of `q`. The block's result is then the
  logits times that word (made a float), with an exact zero replaced by `-∞`.

  Here: what the body leaves in the output's staging buffer as ONE term, the 64 passes as a recursion over the
  column number, and the word at an index by induction over the passes.
-/
import proofs.«429774_j24103356465499_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem

namespace Cert.KernelIdeal.MaskK

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- Reading a whole buffer back after several stores, the LAST of which covered it whole, reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- Column `k` of a block of move indices, as a 256 × 1 vector (column `k mod 64`, so that it is total in `k`). -/
def col (x1 : Vec F S256x64 .i32) (k : ℕ) : Vec F S256x1 .i32 := fun y => x1 (ix2 (y 0) (Fin.ofNat 64 k))

/-- Loading the 256 × 1 rectangle at column `k` of the block reads that column. -/
theorem ld_col (x1 : Vec F S256x64 .i32) (k : ℕ)
    (inb : ∀ a, (![0, k] : Fin 2 → Nat) a + S256x1.size a ≤ S256x64.size a) :
    View.ld x1 (Rect.unit (s := S256x64) ![0, k] S256x1.size inb) = col x1 k := by
  have hk : k < 64 := by
    have h1 := inb 1
    change k + 1 ≤ 64 at h1
    omega
  funext y
  show x1 ((Rect.unit (s := S256x64) ![0, k] S256x1.size inb).emb y) = x1 (ix2 (y 0) (Fin.ofNat 64 k))
  congr 1
  funext a
  refine Fin.ext ?_
  match a with
  | ⟨0, _⟩ =>
    show (![0, k] : Fin 2 → Nat) 0 + 1 * (y 0).val = (y 0).val
    simp
  | ⟨1, _⟩ =>
    show (![0, k] : Fin 2 → Nat) 1 + 1 * (y 1).val = (Fin.ofNat 64 k).val
    have h1 : (y 1).val = 0 := by have := (y 1).isLt; change (y 1).val < 1 at this; omega
    simp [h1, Fin.ofNat, Nat.mod_eq_of_lt hk]

/-- The column-index vector: entry `(p, q)` is the word of `q`. -/
abbrev colIota : IVec S256x4096 32 := iota .tc S256x4096 32 [1] iota_S256x4096_d1_w32

/-- Pass `k`'s hit vector: one where the column index is the row's `k`-th move index, else zero. -/
def hitV (x1 : Vec F S256x64 .i32) (k : ℕ) : IVec S256x4096 32 :=
  extui 32 (cmpi .eq colIota (broadcastTo S256x4096 (col x1 k) broadcasts_S256x1_S256x4096)) natLt_1_32

/-- The scratch after the first `k` passes: zeros, then the running signed maximum with each pass's hit vector. -/
def acc (x1 : Vec F S256x64 .i32) : ℕ → IVec S256x4096 32
  | 0 => broadcast S256x4096 0#32
  | k + 1 => maxsi (acc x1 k) (hitV x1 k)

set_option maxHeartbeats 2000000 in
/-- WHAT THE BODY LEAVES in the output's staging buffer: its one covering store's payload over the logits of the
    input blocks and the scratch after all 64 passes (each read-back of the scratch reads the store before it). -/
theorem out_piece (c : Dev nD) (i : grid0.Coords) (arg1 : Memref sig .tc .vmem S256x400 .f32) (harg1 : arg1.IsWhole) (arg2 : Memref sig .tc .vmem S256x64 .i32) (harg2 : arg2.IsWhole) (arg3 : Memref sig .tc .vmem S400x24 .f32) (harg3 : arg3.IsWhole) (arg4 : Memref sig .tc .vmem S1x24 .f32) (harg4 : arg4.IsWhole) (arg5 : Memref sig .tc .vmem S24x24 .f32) (harg5 : arg5.IsWhole) (arg6 : Memref sig .tc .vmem S1x24 .f32) (harg6 : arg6.IsWhole) (arg7 : Memref sig .tc .vmem S24x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .i32) (harg10 : arg10.IsWhole)
    (x0 : Vec F S256x400 .f32) (x1 : Vec F S256x64 .i32) (x2 : Vec F S400x24 .f32) (x3 : Vec F S1x24 .f32) (x4 : Vec F S24x24 .f32) (x5 : Vec F S1x24 .f32) (x6 : Vec F S24x4096 .f32) (x7 : Vec F S1x4096 .f32) :
    out0_A_8 c i arg1 harg1 arg2 harg2 arg3 harg3 arg4 harg4 arg5 harg5 arg6 harg6 arg7 harg7 arg8 harg8 arg9 harg9 arg10 harg10 x0 x1 x2 x3 x4 x5 x6 x7 = k0_pay2 (k0_pay3 x0 x2 x3 x4 x5 x6 x7) (acc x1 64) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S256x400) hz, View.ld_unit_zero (S := S400x24) hz, View.ld_unit_zero (S := S1x24) hz, View.ld_unit_zero (S := S24x24) hz, View.ld_unit_zero (S := S24x4096) hz, View.ld_unit_zero (S := S1x4096) hz, readCov_cons_whole (S := S256x4096) _ hz, View.readCov_unit_zero (S := S256x4096) _ hz]
  refine congrArg (k0_pay2 (k0_pay3 x0 x2 x3 x4 x5 x6 x7)) ?_
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, shapeCast_self]
  simp only [ld_col x1 0, ld_col x1 1, ld_col x1 2, ld_col x1 3, ld_col x1 4, ld_col x1 5, ld_col x1 6, ld_col x1 7, ld_col x1 8, ld_col x1 9, ld_col x1 10, ld_col x1 11, ld_col x1 12, ld_col x1 13, ld_col x1 14, ld_col x1 15, ld_col x1 16, ld_col x1 17, ld_col x1 18, ld_col x1 19, ld_col x1 20, ld_col x1 21, ld_col x1 22, ld_col x1 23, ld_col x1 24, ld_col x1 25, ld_col x1 26, ld_col x1 27, ld_col x1 28, ld_col x1 29, ld_col x1 30, ld_col x1 31, ld_col x1 32, ld_col x1 33, ld_col x1 34, ld_col x1 35, ld_col x1 36, ld_col x1 37, ld_col x1 38, ld_col x1 39, ld_col x1 40, ld_col x1 41, ld_col x1 42, ld_col x1 43, ld_col x1 44, ld_col x1 45, ld_col x1 46, ld_col x1 47, ld_col x1 48, ld_col x1 49, ld_col x1 50, ld_col x1 51, ld_col x1 52, ld_col x1 53, ld_col x1 54, ld_col x1 55, ld_col x1 56, ld_col x1 57, ld_col x1 58, ld_col x1 59, ld_col x1 60, ld_col x1 61, ld_col x1 62, ld_col x1 63]
  simp only [acc, hitV]

/-! ## The scratch word at an index, by induction over the passes -/

/-- The signed maximum of two words that are each zero or one is their "or". -/
theorem maxsi_bit (a b : Prop) [Decidable a] [Decidable b] :
    IntOp.maxsi (if a then (1#32 : BitVec 32) else 0#32) (if b then (1#32 : BitVec 32) else 0#32) = if a ∨ b then 1#32 else 0#32 := by
  by_cases ha : a <;> by_cases hb : b <;> simp [ha, hb] <;> decide

/-- The widened equality test of two words is one exactly when they are equal. -/
theorem hit_word (u v : BitVec 32) : (IntOp.cmpi .eq u v).setWidth 32 = if u = v then (1#32 : BitVec 32) else 0#32 := by
  by_cases h : u = v
  · subst h; simp [IntOp.cmpi]
  · have hb : (u == v) = false := by simpa using h
    rw [if_neg h]
    simp [IntOp.cmpi, hb]

/-- Pass `k`'s hit vector at `(p, q)`. -/
theorem hitV_apply (x1 : Vec F S256x64 .i32) (k : ℕ) (hk : k < 64) (p : Fin 256) (q : Fin 4096) :
    hitV x1 k (ix2 p q) = if BitVec.ofNat 32 q.val = x1 (ix2 p ⟨k, hk⟩) then (1#32 : BitVec 32) else 0#32 := by
  unfold hitV
  rw [extui_apply]
  show (IntOp.cmpi .eq (colIota (ix2 p q)) (broadcastTo S256x4096 (col x1 k) broadcasts_S256x1_S256x4096 (ix2 p q))).setWidth 32 = _
  rw [hit_word]
  have e1 : colIota (ix2 p q) = BitVec.ofNat 32 q.val := iota_single_apply .tc S256x4096 32 1 iota_S256x4096_d1_w32 (ix2 p q)
  have e2 : broadcastTo S256x4096 (col x1 k) broadcasts_S256x1_S256x4096 (ix2 p q) = x1 (ix2 p ⟨k, hk⟩) := by
    rw [broadcastTo_apply (col x1 k) broadcasts_S256x1_S256x4096 (ix2 p q) (ix2 p (0 : Fin 1)) (fun a => by
      match a with
      | ⟨0, _⟩ => rfl
      | ⟨1, _⟩ => rfl)]
    show x1 (ix2 p (Fin.ofNat 64 k)) = _
    congr 2
    exact Fin.ext (by simp [Fin.ofNat, Nat.mod_eq_of_lt hk])
  rw [e1, e2]

/-- THE SCRATCH AFTER `k` PASSES at `(p, q)`: one exactly when one of the row's first `k` move indices is the word of `q`. -/
theorem acc_apply (x1 : Vec F S256x64 .i32) (p : Fin 256) (q : Fin 4096) :
    ∀ k : ℕ, k ≤ 64 → acc x1 k (ix2 p q)
      = open Classical in if ∃ j : Fin 64, j.val < k ∧ BitVec.ofNat 32 q.val = x1 (ix2 p j) then (1#32 : BitVec 32) else 0#32
  | 0, _ => by
    show (0#32 : BitVec 32) = _
    rw [if_neg]
    rintro ⟨j, hj, _⟩; omega
  | k + 1, hk => by
    have hk' : k < 64 := by omega
    show IntOp.maxsi (acc x1 k (ix2 p q)) (hitV x1 k (ix2 p q)) = _
    rw [acc_apply x1 p q k (by omega), hitV_apply x1 k hk' p q]
    classical
    rw [maxsi_bit]
    congr 1
    apply propext
    constructor
    · rintro (⟨j, hj, e⟩ | e)
      · exact ⟨j, by omega, e⟩
      · exact ⟨⟨k, hk'⟩, by simp, e⟩
    · rintro ⟨j, hj, e⟩
      by_cases hjk : j.val = k
      · right
        have : j = ⟨k, hk'⟩ := Fin.ext hjk
        subst this; exact e
      · left; exact ⟨j, by omega, e⟩

end Cert.KernelIdeal.MaskK

end
-- ==== Proof.KernelValue.lean ====
/-
  The idealized kernel's result array, as ONE function of the argument arrays.

  At grid point `t` the body leaves in the output's staging buffer the block whose entry `(p, q)` is the logit of
  row `256 t + p` at column `q` times the row's legality word at `q` (made a float), an exact zero replaced by `-∞`:
  the specification's result at `(256 t + p, q)`. The 64 blocks tile the array, so the array after the run is the
  specification's result.
-/
import proofs.«429774_j24103356465499_1_alg».proof.Proof.Gen.KernelIdeal.Value
import proofs.«429774_j24103356465499_1_alg».proof.Proof.Spec
import proofs.«429774_j24103356465499_1_alg».proof.Proof.LogitsKernel
import proofs.«429774_j24103356465499_1_alg».proof.Proof.KernelBlocks
import proofs.«429774_j24103356465499_1_alg».proof.Proof.KernelArray
import proofs.«429774_j24103356465499_1_alg».proof.Proof.KernelMask
import Idealize.ShloMosaic.Lib.StableHlo.Predicate

set_option maxRecDepth 16384

noncomputable section

open Idealize.ShloMosaic Idealize.ShloMosaic.TcCoe Idealize.SL.Sem

namespace Cert.KernelIdeal.ValueK

open Cert.KernelIdeal Cert.KernelIdeal.Gen Idealize.ShloMosaic.ValueIdx Cert.KernelIdeal.BlocksK

variable (m : (ℓ : Loc nD τ sig) → Buf (Elt Ideal) ℓ) (ρ : Dev nD → PrngReg)

/-- The specification's result of the argument arrays device `c` holds. -/
def G (c : Dev nD) : S16384x4096.Idx → EReal := Cert.Spec.out (prm m c) (xarr m c) (pmarr m c)

/-- A column index below 4096, as a 32-bit word read signed, is itself. -/
theorem toInt_col (q : Fin 4096) : (BitVec.ofNat 32 q.val).toInt = (q.val : Int) :=
  StableHlo.Predicate.toInt_ofNat_small q.val (by have := q.isLt; omega)

/-- The kernel's legality word, made a float, is the specification's mask value: the word is one exactly when a move
    index of the row IS the word of the column, which for a column below 4096 says that the index read signed is it. -/
theorem mask_float (x1 : Vec Ideal S256x64 .i32) (pm : Cert.Spec.SPm.Idx → BitVec 32) (n : Fin 16384) (p : Fin 256)
    (q : Fin 4096) (hx1 : ∀ k : Fin 64, x1 (ix2 p k) = pm (ix2 n k)) :
    FloatOps.sitofp (F := Ideal) .f32 (MaskK.acc x1 64 (ix2 p q)) = Cert.Spec.maskVal pm n q := by
  rw [MaskK.acc_apply x1 p q 64 le_rfl]
  unfold Cert.Spec.maskVal Cert.Spec.legal
  classical
  have hiff : (∃ j : Fin 64, j.val < 64 ∧ BitVec.ofNat 32 q.val = x1 (ix2 p j))
      ↔ ∃ k : Fin 64, (pm (ix2 n k)).toInt = (q.val : Int) := by
    constructor
    · rintro ⟨j, _, e⟩
      exact ⟨j, by rw [← hx1 j, ← e]; exact toInt_col q⟩
    · rintro ⟨k, e⟩
      refine ⟨k, k.isLt, ?_⟩
      rw [hx1 k]
      exact BitVec.eq_of_toInt_eq (by rw [e]; exact toInt_col q)
  by_cases h : ∃ k : Fin 64, (pm (ix2 n k)).toInt = (q.val : Int)
  · rw [if_pos (hiff.mpr h), if_pos h]
    show (((1#32 : BitVec 32).toInt : ℝ) : EReal) = 1
    norm_num
  · rw [if_neg (mt hiff.mp h), if_neg h]
    show (((0#32 : BitVec 32).toInt : ℝ) : EReal) = 0
    norm_num

/-- The body's last payload at an index: the logit times the legality word made a float, an exact zero made `-∞`. -/
theorem pay2_apply (l : FVec Ideal S256x4096 .f32) (w : Vec Ideal S256x4096 .i32) (i : S256x4096.Idx) :
    k0_pay2 (F := Ideal) l w i = Cert.Spec.combine (l i) (FloatOps.sitofp (F := Ideal) .f32 (w i)) := rfl

/-- WHAT POINT `t` LEAVES at `(p, q)` of the output's staging buffer: the specification's result at row `256 t + p`. -/
theorem point_eq (c : Dev nD) (t : Fin cfg0.N) (p : Fin 256) (q : Fin 4096) :
    outsAt0 m c t (ix2 p q) = G m c (ix2 (ArrayK.rowOf t p) q) := by
  unfold outsAt0
  rw [MaskK.out_piece]
  show k0_pay2 (F := Ideal) (k0_pay3 (blk0 m c t) (blk2 m c t) (blk3 m c t) (blk4 m c t) (blk5 m c t) (blk6 m c t) (blk7 m c t))
    (MaskK.acc (blk1 m c t) 64) (ix2 p q) = _
  rw [pay2_apply,
    LogitsK.pay3_apply (prm m c) (blk0 m c t) (blk2 m c t) (blk3 m c t) (blk4 m c t) (blk5 m c t) (blk6 m c t) (blk7 m c t)
      (blk2_apply m c t) (blk3_apply m c t) (blk4_apply m c t) (blk5_apply m c t) (blk6_apply m c t) (blk7_apply m c t) p q,
    mask_float (blk1 m c t) (pmarr m c) (rowOf t p) p q (fun k => blk1_apply m c t p k)]
  have hx : (fun a : Fin 400 => blk0 m c t (ix2 p a)) = fun a => xarr m c (ix2 (rowOf t p) a) :=
    funext fun a => blk0_apply m c t p a
  rw [hx]
  rfl

/-- THE KERNEL'S RUN: every weakly fair execution ends with the result array at the specification's result and the
    sixteen arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono
    (fun r h c => ⟨(h c).1.trans (ArrayK.final8 m c (G m c) (fun t p q => point_eq m c t p q)), (h c).2⟩)
    (Cert.KernelIdeal.Value.run_blocks m ρ)

end Cert.KernelIdeal.ValueK

end
-- ==== Proof.LogitsRef.lean ====
/-
  The reference's logits stage, read at an index.

  The reference computes the logits as three affine layers with a rectifier after the first two:
  `relu (relu (x · W1ᵀ + b1) · w2ᵀ + b2) · w3ᵀ + b3`, where the second and third layers' weights and biases are
  `mu + sigma * eps`, entry by entry. Each operation of that stage is already read at an index in the generated
  module; here those readings are composed, layer by layer, into the closed form of the specification:
  entry `(n, q)` of the logits is `Cert.Spec.logit` of row `n` of `x` at column `q`.

  The order of the lemmas follows the data flow: the transposed weights and the broadcast biases of each layer
  (one entry each), then the first hidden layer, the second hidden layer, and the logits.
-/
import proofs.«429774_j24103356465499_1_alg».proof.Proof.Gen.ReferenceIdeal.Read
import proofs.«429774_j24103356465499_1_alg».proof.Proof.Spec

noncomputable section

open scoped BigOperators

namespace Cert.ReferenceIdeal.LogitsR
open Cert.ReferenceIdeal Cert.ReferenceIdeal.Read Idealize.ShloMosaic Idealize.ShloMosaic.ValueIdx
variable [Cert.ReferenceIdeal.Facts]

/-! ## Index equations: the composed index maps of the layout operations, at an index given by its coordinates -/

/-- Transposing swaps the two coordinates (first layer's weights). -/
theorem idx_v0 (i : Fin 400) (j : Fin 24) : idx_main_v0 (ix2 i j) = ix2 j i :=
  funext fun a => Fin.ext (by match a with | ⟨0, _⟩ => rfl | ⟨1, _⟩ => rfl)
/-- Transposing swaps the two coordinates (second layer's weights). -/
theorem idx_v8 (j k : Fin 24) : idx_main_v8 (ix2 j k) = ix2 k j :=
  funext fun a => Fin.ext (by match a with | ⟨0, _⟩ => rfl | ⟨1, _⟩ => rfl)
/-- Transposing swaps the two coordinates (third layer's weights). -/
theorem idx_v18 (k : Fin 24) (q : Fin 4096) : idx_main_v18 (ix2 k q) = ix2 q k :=
  funext fun a => Fin.ext (by match a with | ⟨0, _⟩ => rfl | ⟨1, _⟩ => rfl)
/-- A bias broadcast along the rows is read at the column (first layer). -/
theorem idx_v2_v3 (n : Fin 16384) (j : Fin 24) : idx_main_v2 (idx_main_v3 (ix2 n j)) = ix1 j :=
  funext fun a => Fin.ext (by match a with | ⟨0, _⟩ => rfl)
/-- A bias broadcast along the rows is read at the column (second layer). -/
theorem idx_v12_v13 (n : Fin 16384) (k : Fin 24) : idx_main_v12 (idx_main_v13 (ix2 n k)) = ix1 k :=
  funext fun a => Fin.ext (by match a with | ⟨0, _⟩ => rfl)
/-- A bias broadcast along the rows is read at the column (third layer). -/
theorem idx_v22_v23 (n : Fin 16384) (q : Fin 4096) : idx_main_v22 (idx_main_v23 (ix2 n q)) = ix1 q :=
  funext fun a => Fin.ext (by match a with | ⟨0, _⟩ => rfl)
/-- The left operand of the first contraction is read at row `n`, column `i`. -/
theorem lidx_v1 (n : Fin 16384) (j : Fin 24) (i : Fin 400) : lidx_main_v1 (ix2 n j) i = ix2 n i :=
  funext fun a => Fin.ext (by match a with | ⟨0, _⟩ => rfl | ⟨1, _⟩ => rfl)
/-- The right operand of the first contraction is read at row `i`, column `j`. -/
theorem ridx_v1 (n : Fin 16384) (j : Fin 24) (i : Fin 400) : ridx_main_v1 (ix2 n j) i = ix2 i j :=
  funext fun a => Fin.ext (by match a with | ⟨0, _⟩ => rfl | ⟨1, _⟩ => rfl)
/-- The left operand of the second contraction is read at row `n`, column `j`. -/
theorem lidx_v9 (n : Fin 16384) (k j : Fin 24) : lidx_main_v9 (ix2 n k) j = ix2 n j :=
  funext fun a => Fin.ext (by match a with | ⟨0, _⟩ => rfl | ⟨1, _⟩ => rfl)
/-- The right operand of the second contraction is read at row `j`, column `k`. -/
theorem ridx_v9 (n : Fin 16384) (k j : Fin 24) : ridx_main_v9 (ix2 n k) j = ix2 j k :=
  funext fun a => Fin.ext (by match a with | ⟨0, _⟩ => rfl | ⟨1, _⟩ => rfl)
/-- The left operand of the third contraction is read at row `n`, column `k`. -/
theorem lidx_v19 (n : Fin 16384) (q : Fin 4096) (k : Fin 24) : lidx_main_v19 (ix2 n q) k = ix2 n k :=
  funext fun a => Fin.ext (by match a with | ⟨0, _⟩ => rfl | ⟨1, _⟩ => rfl)
/-- The right operand of the third contraction is read at row `k`, column `q`. -/
theorem ridx_v19 (n : Fin 16384) (q : Fin 4096) (k : Fin 24) : ridx_main_v19 (ix2 n q) k = ix2 k q :=
  funext fun a => Fin.ext (by match a with | ⟨0, _⟩ => rfl | ⟨1, _⟩ => rfl)

/-! ## The weights and biases of each layer, one entry each -/

/-- Entry `(i, j)` of the transposed first-layer weights is `W1[j, i]`. -/
theorem w1_at (x2 : (⟨S24x400, .f32⟩ : BufTy).Contents (Elt Ideal)) (i : Fin 400) (j : Fin 24) :
    val_main_v0 (F := Ideal) x2 (ix2 i j) = x2 (ix2 j i) := by
  rw [val_main_v0_apply, idx_v0]

/-- Entry `(n, j)` of the broadcast first-layer bias is `b1[j]`. -/
theorem b1_at (x3 : (⟨S24, .f32⟩ : BufTy).Contents (Elt Ideal)) (n : Fin 16384) (j : Fin 24) :
    val_main_v3 (F := Ideal) x3 (ix2 n j) = x3 (ix1 j) := by
  rw [val_main_v3_apply, val_main_v2_apply, idx_v2_v3]

/-- Entry `(j, k)` of the transposed second-layer weights is `mu + sigma * eps` at `(k, j)`. -/
theorem w2_at (x4 x6 x8 : (⟨S24x24, .f32⟩ : BufTy).Contents (Elt Ideal)) (j k : Fin 24) :
    val_main_v8 (F := Ideal) x4 x6 x8 (ix2 j k) = x4 (ix2 k j) + x6 (ix2 k j) * x8 (ix2 k j) := by
  rw [val_main_v8_apply, idx_v8, val_main_v7_apply, val_main_v6_apply, Ideal.addf_def, Ideal.mulf_def]

/-- Entry `(n, k)` of the broadcast second-layer bias is `mu + sigma * eps` at `k`. -/
theorem b2_at (x5 x7 x9 : (⟨S24, .f32⟩ : BufTy).Contents (Elt Ideal)) (n : Fin 16384) (k : Fin 24) :
    val_main_v13 (F := Ideal) x5 x7 x9 (ix2 n k) = x5 (ix1 k) + x7 (ix1 k) * x9 (ix1 k) := by
  rw [val_main_v13_apply, val_main_v12_apply, idx_v12_v13, val_main_v11_apply, val_main_v10_apply,
    Ideal.addf_def, Ideal.mulf_def]

/-- Entry `(k, q)` of the transposed third-layer weights is `mu + sigma * eps` at `(q, k)`. -/
theorem w3_at (x10 x12 x14 : (⟨S4096x24, .f32⟩ : BufTy).Contents (Elt Ideal)) (k : Fin 24) (q : Fin 4096) :
    val_main_v18 (F := Ideal) x10 x12 x14 (ix2 k q) = x10 (ix2 q k) + x12 (ix2 q k) * x14 (ix2 q k) := by
  rw [val_main_v18_apply, idx_v18, val_main_v17_apply, val_main_v16_apply, Ideal.addf_def, Ideal.mulf_def]

/-- Entry `(n, q)` of the broadcast third-layer bias is `mu + sigma * eps` at `q`. -/
theorem b3_at (x11 x13 x15 : (⟨S4096, .f32⟩ : BufTy).Contents (Elt Ideal)) (n : Fin 16384) (q : Fin 4096) :
    val_main_v23 (F := Ideal) x11 x13 x15 (ix2 n q) = x11 (ix1 q) + x13 (ix1 q) * x15 (ix1 q) := by
  rw [val_main_v23_apply, val_main_v22_apply, idx_v22_v23, val_main_v21_apply, val_main_v20_apply,
    Ideal.addf_def, Ideal.mulf_def]

/-! ## The layers -/

section layers

variable (x0 : (⟨S16384x400, .f32⟩ : BufTy).Contents (Elt Ideal)) (x2 : (⟨S24x400, .f32⟩ : BufTy).Contents (Elt Ideal)) (x3 : (⟨S24, .f32⟩ : BufTy).Contents (Elt Ideal)) (x4 : (⟨S24x24, .f32⟩ : BufTy).Contents (Elt Ideal)) (x5 : (⟨S24, .f32⟩ : BufTy).Contents (Elt Ideal)) (x6 : (⟨S24x24, .f32⟩ : BufTy).Contents (Elt Ideal)) (x7 : (⟨S24, .f32⟩ : BufTy).Contents (Elt Ideal)) (x8 : (⟨S24x24, .f32⟩ : BufTy).Contents (Elt Ideal)) (x9 : (⟨S24, .f32⟩ : BufTy).Contents (Elt Ideal)) (x10 : (⟨S4096x24, .f32⟩ : BufTy).Contents (Elt Ideal)) (x11 : (⟨S4096, .f32⟩ : BufTy).Contents (Elt Ideal)) (x12 : (⟨S4096x24, .f32⟩ : BufTy).Contents (Elt Ideal)) (x13 : (⟨S4096, .f32⟩ : BufTy).Contents (Elt Ideal)) (x14 : (⟨S4096x24, .f32⟩ : BufTy).Contents (Elt Ideal)) (x15 : (⟨S4096, .f32⟩ : BufTy).Contents (Elt Ideal))

/-- The network's weights as the reference's arguments 2 … 15 give them, in the specification's order. -/
abbrev prm : Cert.Spec.Params := ⟨x2, x3, x4, x5, x6, x7, x8, x9, x10, x11, x12, x13, x14, x15⟩

/-- The first hidden layer: entry `(n, j)` of `relu (x · W1ᵀ + b1)` is the specification's `hid1` of row `n`. -/
theorem hid1_at (n : Fin 16384) (j : Fin 24) :
    val_main_v5 (F := Ideal) x0 x2 x3 (ix2 n j)
      = Cert.Spec.hid1 (prm x2 x3 x4 x5 x6 x7 x8 x9 x10 x11 x12 x13 x14 x15) (fun a => x0 (ix2 n a)) j := by
  show _ = max ((∑ i : Fin 400, x0 (ix2 n i) * x2 (ix2 j i)) + x3 (ix1 j)) 0
  have hs : (∑ i : Fin 400, x0 (lidx_main_v1 (ix2 n j) i) * val_main_v0 (F := Ideal) x2 (ridx_main_v1 (ix2 n j) i))
      = ∑ i : Fin 400, x0 (ix2 n i) * x2 (ix2 j i) :=
    Finset.sum_congr rfl fun i _ => by rw [lidx_v1, ridx_v1, w1_at]
  rw [val_main_v5_apply, val_main_call0_v0_apply, val_main_call0_cst_apply, val_main_v4_apply, val_main_v1_apply,
    b1_at, Ideal.maximumf_def, Ideal.addf_def, Ideal.ofBits_def, Ideal.ofBits_zero_f32, hs]

/-- The second hidden layer: entry `(n, k)` of `relu (h1 · w2ᵀ + b2)` is the specification's `hid2` of row `n`. -/
theorem hid2_at (n : Fin 16384) (k : Fin 24) :
    val_main_v15 (F := Ideal) x0 x2 x3 x4 x5 x6 x7 x8 x9 (ix2 n k)
      = Cert.Spec.hid2 (prm x2 x3 x4 x5 x6 x7 x8 x9 x10 x11 x12 x13 x14 x15) (fun a => x0 (ix2 n a)) k := by
  show _ = max ((∑ j : Fin 24, Cert.Spec.hid1 (prm x2 x3 x4 x5 x6 x7 x8 x9 x10 x11 x12 x13 x14 x15) (fun a => x0 (ix2 n a)) j
      * (x4 (ix2 k j) + x6 (ix2 k j) * x8 (ix2 k j))) + (x5 (ix1 k) + x7 (ix1 k) * x9 (ix1 k))) 0
  have hs : (∑ j : Fin 24, val_main_v5 (F := Ideal) x0 x2 x3 (lidx_main_v9 (ix2 n k) j)
        * val_main_v8 (F := Ideal) x4 x6 x8 (ridx_main_v9 (ix2 n k) j))
      = ∑ j : Fin 24, Cert.Spec.hid1 (prm x2 x3 x4 x5 x6 x7 x8 x9 x10 x11 x12 x13 x14 x15) (fun a => x0 (ix2 n a)) j
        * (x4 (ix2 k j) + x6 (ix2 k j) * x8 (ix2 k j)) :=
    Finset.sum_congr rfl fun j _ => by
      rw [lidx_v9, ridx_v9, hid1_at x0 x2 x3 x4 x5 x6 x7 x8 x9 x10 x11 x12 x13 x14 x15, w2_at]
  rw [val_main_v15_apply, val_main_call1_v0_apply, val_main_call1_cst_apply, val_main_v14_apply, val_main_v9_apply,
    b2_at, Ideal.maximumf_def, Ideal.addf_def, Ideal.ofBits_def, Ideal.ofBits_zero_f32, hs]

end layers

/-- THE LOGITS: entry `(n, q)` of `h2 · w3ᵀ + b3` is the specification's `logit` of row `n` of `x` at column `q`. -/
theorem v24_apply (x0 : (⟨S16384x400, .f32⟩ : BufTy).Contents (Elt Ideal)) (x2 : (⟨S24x400, .f32⟩ : BufTy).Contents (Elt Ideal)) (x3 : (⟨S24, .f32⟩ : BufTy).Contents (Elt Ideal)) (x4 : (⟨S24x24, .f32⟩ : BufTy).Contents (Elt Ideal)) (x5 : (⟨S24, .f32⟩ : BufTy).Contents (Elt Ideal)) (x6 : (⟨S24x24, .f32⟩ : BufTy).Contents (Elt Ideal)) (x7 : (⟨S24, .f32⟩ : BufTy).Contents (Elt Ideal)) (x8 : (⟨S24x24, .f32⟩ : BufTy).Contents (Elt Ideal)) (x9 : (⟨S24, .f32⟩ : BufTy).Contents (Elt Ideal)) (x10 : (⟨S4096x24, .f32⟩ : BufTy).Contents (Elt Ideal)) (x11 : (⟨S4096, .f32⟩ : BufTy).Contents (Elt Ideal)) (x12 : (⟨S4096x24, .f32⟩ : BufTy).Contents (Elt Ideal)) (x13 : (⟨S4096, .f32⟩ : BufTy).Contents (Elt Ideal)) (x14 : (⟨S4096x24, .f32⟩ : BufTy).Contents (Elt Ideal)) (x15 : (⟨S4096, .f32⟩ : BufTy).Contents (Elt Ideal))
    (n : Fin 16384) (q : Fin 4096) :
    val_main_v24 (F := Ideal) x0 x2 x3 x4 x5 x6 x7 x8 x9 x10 x11 x12 x13 x14 x15 (ix2 n q)
      = Cert.Spec.logit ⟨x2, x3, x4, x5, x6, x7, x8, x9, x10, x11, x12, x13, x14, x15⟩ (fun a => x0 (ix2 n a)) q := by
  show _ = (∑ k : Fin 24, Cert.Spec.hid2 (prm x2 x3 x4 x5 x6 x7 x8 x9 x10 x11 x12 x13 x14 x15) (fun a => x0 (ix2 n a)) k
      * (x10 (ix2 q k) + x12 (ix2 q k) * x14 (ix2 q k))) + (x11 (ix1 q) + x13 (ix1 q) * x15 (ix1 q))
  have hs : (∑ k : Fin 24, val_main_v15 (F := Ideal) x0 x2 x3 x4 x5 x6 x7 x8 x9 (lidx_main_v19 (ix2 n q) k)
        * val_main_v18 (F := Ideal) x10 x12 x14 (ridx_main_v19 (ix2 n q) k))
      = ∑ k : Fin 24, Cert.Spec.hid2 (prm x2 x3 x4 x5 x6 x7 x8 x9 x10 x11 x12 x13 x14 x15) (fun a => x0 (ix2 n a)) k
        * (x10 (ix2 q k) + x12 (ix2 q k) * x14 (ix2 q k)) :=
    Finset.sum_congr rfl fun k _ => by
      rw [lidx_v19, ridx_v19, hid2_at x0 x2 x3 x4 x5 x6 x7 x8 x9 x10 x11 x12 x13 x14 x15, w3_at]
  rw [val_main_v24_apply, val_main_v19_apply, b3_at, Ideal.addf_def, hs]

end Cert.ReferenceIdeal.LogitsR

end
-- ==== Proof.LibPointScatter.lean ====
/-
  A `stablehlo.scatter` that adds single ELEMENTS into a rank-2 array `[N, M]` — what `x.at[rows, cols].add(u)`
  lowers to for index arrays of shape `[R, C]` (no window axis, both operand axes inserted, scatter indices
  `[R, C, 2]` with the index vector last) — read through its landing map: the update at `(r, k)` lands at the
  element `(n, m)` exactly when the two components of its index vector, read as signed integers, are `n` and `m`
  (an index vector naming no element of the array lands nowhere).
-/
import Idealize.ShloMosaic.PureOps.Ideal
import Idealize.ShloMosaic.Lib.ValueIdx

noncomputable section

namespace Cert.Lib.PointScatter

open Idealize.ShloMosaic Idealize.ShloMosaic.ValueIdx

/-- The dimension numbers of an element scatter into `[N, M]` with scatter indices `[R, C, 2]` and updates `[R, C]`. -/
abbrev pointDims (N M R C : Nat)
    (wf : ScatterDims.WF ⟨2, ![N, M]⟩ ⟨3, ![R, C, 2]⟩ ⟨2, ![R, C]⟩ [] [0, 1] [0, 1] 2) :
    ScatterDims ⟨2, ![N, M]⟩ ⟨3, ![R, C, 2]⟩ ⟨2, ![R, C]⟩ where
  updateWindowDims := []
  insertedWindowDims := [0, 1]
  scatterDimsToOperandDims := [0, 1]
  indexVectorDim := 2
  wf := wf

variable {N M R C w : Nat}
  (wf : ScatterDims.WF ⟨2, ![N, M]⟩ ⟨3, ![R, C, 2]⟩ ⟨2, ![R, C]⟩ [] [0, 1] [0, 1] 2)

/-- No operand axis is a window axis: both are inserted. -/
theorem sKept_nil : (pointDims N M R C wf).sKept = [] := rfl

/-- The window coordinate is zero on both operand axes. -/
theorem window_zero (j : (⟨2, ![R, C]⟩ : Shape).Idx) (a : Fin 2) : (pointDims N M R C wf).window j a = 0 := by
  unfold ScatterDims.window
  rw [dif_neg (by rw [sKept_nil]; exact List.not_mem_nil)]

/-- The start on the row axis is the first component of the update's index vector, read signed. -/
theorem start_row (idx : IVec ⟨3, ![R, C, 2]⟩ w) (r : Fin R) (k : Fin C) :
    (pointDims N M R C wf).start (ix2 r k) idx (0 : Fin 2) = (idx (ix3 r k (0 : Fin 2))).toInt := by
  unfold ScatterDims.start
  rw [dif_pos (show (0 : Fin 2) ∈ (pointDims N M R C wf).scatterDimsToOperandDims from List.mem_cons_self ..)]
  have hsi : (pointDims N M R C wf).siIdx (ix2 r k) ⟨List.idxOf (0 : Fin 2) (pointDims N M R C wf).scatterDimsToOperandDims,
      List.idxOf_lt_length_iff.2 (List.mem_cons_self ..)⟩ = ix3 r k (0 : Fin 2) := by
    funext b; refine Fin.ext ?_
    match b with
    | ⟨0, _⟩ => rfl
    | ⟨1, _⟩ => rfl
    | ⟨2, _⟩ => rfl
  rw [hsi]

/-- The start on the column axis is the second component of the update's index vector, read signed. -/
theorem start_col (idx : IVec ⟨3, ![R, C, 2]⟩ w) (r : Fin R) (k : Fin C) :
    (pointDims N M R C wf).start (ix2 r k) idx (1 : Fin 2) = (idx (ix3 r k (1 : Fin 2))).toInt := by
  unfold ScatterDims.start
  have hm : (1 : Fin 2) ∈ (pointDims N M R C wf).scatterDimsToOperandDims :=
    List.mem_cons_of_mem _ (List.mem_cons_self ..)
  rw [dif_pos hm]
  have hsi : (pointDims N M R C wf).siIdx (ix2 r k) ⟨List.idxOf (1 : Fin 2) (pointDims N M R C wf).scatterDimsToOperandDims,
      List.idxOf_lt_length_iff.2 hm⟩ = ix3 r k (1 : Fin 2) := by
    funext b; refine Fin.ext ?_
    match b with
    | ⟨0, _⟩ => rfl
    | ⟨1, _⟩ => rfl
    | ⟨2, _⟩ => rfl
  rw [hsi]

/-- WHERE AN UPDATE LANDS: the update at `(r, k)` lands at `(n, m)` iff its index vector, read signed, is `(n, m)`. -/
theorem resultIdx?_eq_some_iff (idx : IVec ⟨3, ![R, C, 2]⟩ w) (r : Fin R) (k : Fin C) (n : Fin N) (m : Fin M) :
    (pointDims N M R C wf).resultIdx? (ix2 r k) idx = some (ix2 n m)
      ↔ (idx (ix3 r k (0 : Fin 2))).toInt = (n.val : Int) ∧ (idx (ix3 r k (1 : Fin 2))).toInt = (m.val : Int) := by
  have h0 := start_row wf idx r k
  have h1 := start_col wf idx r k
  have w0 := window_zero wf (ix2 r k) (0 : Fin 2)
  have w1 := window_zero wf (ix2 r k) (1 : Fin 2)
  unfold ScatterDims.resultIdx?
  constructor
  · intro h
    split at h
    · rename_i hb
      have e := Option.some.inj h
      have e0 := congrArg Fin.val (congrFun e (0 : Fin 2))
      have e1 := congrArg Fin.val (congrFun e (1 : Fin 2))
      have b0 := hb (0 : Fin 2)
      have b1 := hb (1 : Fin 2)
      simp only [h0, h1, w0, w1] at e0 e1 b0 b1
      constructor
      · have : ((idx (ix3 r k (0 : Fin 2))).toInt + ((0 : Nat) : Int)).toNat = n.val := e0
        omega
      · have : ((idx (ix3 r k (1 : Fin 2))).toInt + ((0 : Nat) : Int)).toNat = m.val := e1
        omega
    · exact absurd h (by simp)
  · rintro ⟨e0, e1⟩
    have hb : ∀ a : Fin 2, 0 ≤ (pointDims N M R C wf).start (ix2 r k) idx a + (pointDims N M R C wf).window (ix2 r k) a
        ∧ (pointDims N M R C wf).start (ix2 r k) idx a + (pointDims N M R C wf).window (ix2 r k) a
          < (⟨2, ![N, M]⟩ : Shape).size a := by
      intro a
      match a with
      | ⟨0, _⟩ =>
        have hn : n.val < N := n.isLt
        show 0 ≤ (pointDims N M R C wf).start (ix2 r k) idx (0 : Fin 2) + ((pointDims N M R C wf).window (ix2 r k) (0 : Fin 2) : Int)
          ∧ (pointDims N M R C wf).start (ix2 r k) idx (0 : Fin 2) + ((pointDims N M R C wf).window (ix2 r k) (0 : Fin 2) : Int) < (N : Int)
        rw [h0, w0, e0]; omega
      | ⟨1, _⟩ =>
        have hm : m.val < M := m.isLt
        show 0 ≤ (pointDims N M R C wf).start (ix2 r k) idx (1 : Fin 2) + ((pointDims N M R C wf).window (ix2 r k) (1 : Fin 2) : Int)
          ∧ (pointDims N M R C wf).start (ix2 r k) idx (1 : Fin 2) + ((pointDims N M R C wf).window (ix2 r k) (1 : Fin 2) : Int) < (M : Int)
        rw [h1, w1, e1]; omega
    rw [dif_pos hb]
    congr 1
    funext a
    refine Fin.ext ?_
    match a with
    | ⟨0, _⟩ =>
      show ((pointDims N M R C wf).start (ix2 r k) idx (0 : Fin 2) + ((pointDims N M R C wf).window (ix2 r k) (0 : Fin 2) : Int)).toNat = n.val
      rw [h0, w0, e0]; omega
    | ⟨1, _⟩ =>
      show ((pointDims N M R C wf).start (ix2 r k) idx (1 : Fin 2) + ((pointDims N M R C wf).window (ix2 r k) (1 : Fin 2) : Int)).toNat = m.val
      rw [h1, w1, e1]; omega

end Cert.Lib.PointScatter

end
-- ==== Proof.RefMask.lean ====
/-
  The reference's legality mask read at an index.

  The mask is a scatter of the constant one into an array of zeros: for every row r and every k < 64 the update at
  (r, k) is written at the element whose row is r and whose column is the k-th move index of row r. Because every
  update carries the same value, the order of the writes does not matter: an element of the result is one exactly
  when SOME update lands on it, and keeps the operand's zero otherwise. An update (r, k) lands on (n, q) exactly when
  r = n and the k-th move index of row n, read signed, is q: so the element (n, q) is one iff q is among the move
  indices of row n.
-/
import proofs.«429774_j24103356465499_1_alg».proof.Proof.Gen.ReferenceIdeal.Read
import proofs.«429774_j24103356465499_1_alg».proof.Proof.LibPointScatter
import proofs.«429774_j24103356465499_1_alg».proof.Proof.Spec
import Idealize.ShloMosaic.Lib.IdealHost
import Idealize.ShloMosaic.Lib.StableHlo.Predicate

noncomputable section

namespace Cert.ReferenceIdeal.RefMask
open Cert.ReferenceIdeal Cert.ReferenceIdeal.Read Idealize.ShloMosaic Idealize.ShloMosaic.ValueIdx

/-! ## A scatter that writes one constant: the result at an element is the constant iff some update lands there -/

section Fold

variable {α : Type} {s si u : Shape} {w : Nat} (d : ScatterDims s si u) (idx : IVec si w) (c : α)

/-- One step of the scatter's fold when the body returns the update and every update is c. -/
def step (r : s.Idx → α) (n : Fin u.numel) : s.Idx → α :=
  match d.resultIdx? (u.rowMajor.symm n) idx with
  | some i => fun i' => if i' = i then c else r i'
  | none => r

theorem scatter_eq_foldl (x : s.Idx → α) :
    Host.scatter d (fun _ b => b) x idx (fun _ => c) = (List.finRange u.numel).foldl (step d idx c) x := rfl

/-- A step whose update lands on i' writes c there. -/
theorem step_hit (r : s.Idx → α) (n : Fin u.numel) (i' : s.Idx)
    (h : d.resultIdx? (u.rowMajor.symm n) idx = some i') : step d idx c r n i' = c := by
  unfold step; rw [h]; exact if_pos rfl

/-- A step whose update does not land on i' leaves that element alone. -/
theorem step_miss (r : s.Idx → α) (n : Fin u.numel) (i' : s.Idx)
    (h : d.resultIdx? (u.rowMajor.symm n) idx ≠ some i') : step d idx c r n i' = r i' := by
  unfold step
  generalize d.resultIdx? (u.rowMajor.symm n) idx = o at h
  cases o with
  | none => rfl
  | some i =>
    have hne : i' ≠ i := fun e => h (by rw [e])
    exact if_neg hne

/-- An element that already holds c holds it after any further steps. -/
theorem foldl_keep (i' : s.Idx) (L : List (Fin u.numel)) :
    ∀ r : s.Idx → α, r i' = c → L.foldl (step d idx c) r i' = c := by
  induction L with
  | nil => intro r h; exact h
  | cons n L ih =>
    intro r h
    rw [List.foldl_cons]
    refine ih _ ?_
    by_cases hn : d.resultIdx? (u.rowMajor.symm n) idx = some i'
    · exact step_hit d idx c r n i' hn
    · rw [step_miss d idx c r n i' hn]; exact h

/-- If one of the steps lands on i', the element is c at the end. -/
theorem foldl_hit (i' : s.Idx) (L : List (Fin u.numel)) :
    ∀ r : s.Idx → α, (∃ n ∈ L, d.resultIdx? (u.rowMajor.symm n) idx = some i') →
      L.foldl (step d idx c) r i' = c := by
  induction L with
  | nil => intro r h; obtain ⟨n, hn, _⟩ := h; exact absurd hn List.not_mem_nil
  | cons n L ih =>
    intro r h
    rw [List.foldl_cons]
    by_cases hn : d.resultIdx? (u.rowMajor.symm n) idx = some i'
    · exact foldl_keep d idx c i' L _ (step_hit d idx c r n i' hn)
    · obtain ⟨m, hm, hmi⟩ := h
      rcases List.mem_cons.1 hm with e | hm'
      · exact absurd (e ▸ hmi) hn
      · exact ih _ ⟨m, hm', hmi⟩

/-- If none of the steps lands on i', the element is unchanged. -/
theorem foldl_miss (i' : s.Idx) (L : List (Fin u.numel)) :
    ∀ r : s.Idx → α, (∀ n ∈ L, d.resultIdx? (u.rowMajor.symm n) idx ≠ some i') →
      L.foldl (step d idx c) r i' = r i' := by
  induction L with
  | nil => intro r _; rfl
  | cons n L ih =>
    intro r h
    rw [List.foldl_cons, ih _ (fun m hm => h m (List.mem_cons_of_mem _ hm))]
    exact step_miss d idx c r n i' (h n List.mem_cons_self)

/-- Some update lands on i': the scatter's result there is the constant. -/
theorem scatter_const_of_hit (x : s.Idx → α) (i' : s.Idx) (j : u.Idx) (h : d.resultIdx? j idx = some i') :
    Host.scatter d (fun _ b => b) x idx (fun _ => c) i' = c := by
  rw [scatter_eq_foldl]
  exact foldl_hit d idx c i' _ x ⟨u.rowMajor j, List.mem_finRange _, by rw [Equiv.symm_apply_apply]; exact h⟩

/-- No update lands on i': the scatter's result there is the operand's element. -/
theorem scatter_const_of_miss (x : s.Idx → α) (i' : s.Idx) (h : ∀ j : u.Idx, d.resultIdx? j idx ≠ some i') :
    Host.scatter d (fun _ b => b) x idx (fun _ => c) i' = x i' := by
  rw [scatter_eq_foldl]
  exact foldl_miss d idx c i' _ x (fun n _ => h _)

end Fold

/-! ## The scatter indices of the mask: the index vector of the update at (r, k) is (r, the k-th move index of row r) -/

section Program

variable [Cert.ReferenceIdeal.Facts]

/-- A word that is not negative, read signed, is not below zero: the signed compare with the zero word is false. -/
theorem cmpi_slt_zero_of_nonneg (a : BitVec 32) (h : 0 ≤ a.toInt) : IntOp.cmpi .slt a 0#32 = 0#1 := by
  have hs : a.slt 0#32 = false := by
    simp only [BitVec.slt, BitVec.toInt_zero, decide_eq_false_iff_not, not_lt]; exact h
  show BitVec.ofBool (a.slt 0#32) = 0#1
  rw [hs]; rfl

/-- The row iota, broadcast to a column, reads the row's number as a word. -/
theorem v26_at (i : S16384x1.Idx) : val_main_v26 (F := Ideal) i = BitVec.ofNat 32 (i 0).val := by
  rw [val_main_v26_apply, val_main_v25_apply]

/-- Wrapping a negative row number does nothing to the row iota: a row number is never negative. -/
theorem v32_at (i : S16384x1.Idx) : val_main_v32 (F := Ideal) i = BitVec.ofNat 32 (i 0).val := by
  rw [val_main_v32_apply, val_main_v29_apply, val_main_v28_apply, val_main_c_apply, v26_at]
  have hlt : (i 0).val < 16384 := (i 0).isLt
  have h0 : IntOp.cmpi .slt (BitVec.ofNat 32 (i 0).val) 0#32 = 0#1 :=
    cmpi_slt_zero_of_nonneg _ (by rw [StableHlo.Predicate.toInt_ofNat_small _ (by omega)]; omega)
  rw [h0, select_zero]

/-- The first component of the index vector of the update at (r, k), read signed, is r. -/
theorem idx_row (x1 : (⟨S16384x64, .i32⟩ : BufTy).Contents (Elt Ideal)) (r : Fin 16384) (k : Fin 64) :
    (val_main_v41 (F := Ideal) x1 (ix3 r k (0 : Fin 2))).toInt = (r.val : Int) := by
  have e41 : val_main_v41 (F := Ideal) x1 (ix3 r k (0 : Fin 2)) = val_main_v39 (F := Ideal) (ix3 r k (0 : Fin 1)) := by
    unfold val_main_v41
    exact concatenate_pair_apply_left (t := S16384x64x2) (s₁ := S16384x64x1) (s₂ := S16384x64x1) (2 : Fin 3) _ _ _
      (ix3 r k (0 : Fin 2)) rfl (ix3 r k (0 : Fin 1))
      (fun b => match b with
        | ⟨0, _⟩ => rfl
        | ⟨1, _⟩ => rfl
        | ⟨2, _⟩ => rfl)
  rw [e41, val_main_v39_apply, val_main_v38_apply, v32_at]
  show (BitVec.ofNat 32 r.val).toInt = (r.val : Int)
  exact StableHlo.Predicate.toInt_ofNat_small _ (by have := r.isLt; omega)

/-- The second component is the k-th move index of row r: wrapping a negative index does nothing to an index that
    is not negative. -/
theorem idx_col (x1 : (⟨S16384x64, .i32⟩ : BufTy).Contents (Elt Ideal))
    (hpm : ∀ (n : Fin 16384) (k : Fin 64), 0 ≤ (x1 (ix2 n k)).toInt) (r : Fin 16384) (k : Fin 64) :
    (val_main_v41 (F := Ideal) x1 (ix3 r k (1 : Fin 2))).toInt = (x1 (ix2 r k)).toInt := by
  have e41 : val_main_v41 (F := Ideal) x1 (ix3 r k (1 : Fin 2)) = val_main_v40 (F := Ideal) x1 (ix3 r k (0 : Fin 1)) := by
    unfold val_main_v41
    exact concatenate_pair_apply_right (t := S16384x64x2) (s₁ := S16384x64x1) (s₂ := S16384x64x1) (2 : Fin 3) _ _ _
      (ix3 r k (1 : Fin 2)) rfl rfl (ix3 r k (0 : Fin 1))
      (fun b hb => match b, hb with
        | ⟨0, _⟩, _ => rfl
        | ⟨1, _⟩, _ => rfl
        | ⟨2, _⟩, hb => absurd rfl hb) rfl
  have ei : idx_main_v40 (ix3 r k (0 : Fin 1)) = ix2 r k := by
    funext a
    match a with
    | ⟨0, _⟩ => rfl
    | ⟨1, _⟩ => rfl
  rw [e41, val_main_v40_apply, ei, val_main_v37_apply, val_main_v34_apply, val_main_v33_apply, val_main_c_1_apply,
    cmpi_slt_zero_of_nonneg _ (hpm r k), select_zero]

/-! ## The mask at an index -/

/-- THE MASK: the element (n, q) of the scatter's result is one when q is one of row n's move indices and zero when
    it is not. -/
theorem v43_apply (x1 : (⟨S16384x64, .i32⟩ : BufTy).Contents (Elt Ideal))
    (hpm : ∀ (n : Fin 16384) (k : Fin 64), 0 ≤ (x1 (ix2 n k)).toInt)
    (n : Fin 16384) (q : Fin 4096) :
    val_main_v43 (F := Ideal) x1 (ix2 n q) = Cert.Spec.maskVal x1 n q := by
  have h27 : ∀ i, val_main_v27 (F := Ideal) i = (0 : EReal) := fun i => by
    rw [val_main_v27_apply, val_main_cst_apply]; exact Ideal.ofBits_zero_f32
  have h42 : val_main_v42 (F := Ideal) = fun _ => (1 : EReal) := funext fun i => by
    rw [val_main_v42_apply, val_main_cst_3_apply]; exact Ideal.ofBits_one_f32
  unfold val_main_v43 Cert.Spec.maskVal
  rw [h42]
  by_cases hl : Cert.Spec.legal x1 n q
  · rw [if_pos hl]
    obtain ⟨k, hk⟩ := hl
    refine scatter_const_of_hit _ _ _ _ _ (ix2 n k) ?_
    exact (Cert.Lib.PointScatter.resultIdx?_eq_some_iff _ _ n k n q).2
      ⟨idx_row x1 n k, (idx_col x1 hpm n k).trans hk⟩
  · have hmiss : ∀ (r : Fin 16384) (k : Fin 64),
        scatter_S16384x4096_S16384x64x2_S16384x64_n_01_01_2.resultIdx? (ix2 r k) (val_main_v41 (F := Ideal) x1)
          ≠ some (ix2 n q) := by
      intro r k hj
      have hh := (Cert.Lib.PointScatter.resultIdx?_eq_some_iff _ _ r k n q).1 hj
      rw [idx_row, idx_col x1 hpm] at hh
      have hr : r = n := Fin.ext (by have := hh.1; omega)
      exact hl ⟨k, by rw [← hr]; exact hh.2⟩
    rw [if_neg hl, scatter_const_of_miss _ _ _ _ _ (fun j => by rw [eq_ix2 j]; exact hmiss (j 0) (j 1)), h27]

end Program

end Cert.ReferenceIdeal.RefMask

end
-- ==== Proof.RefValue.lean ====
/-
  The idealized reference's result, as the same function of the argument arrays.

  Index by index the reference forms the logit of the row (its three matrix products, biases and rectifiers), multiplies
  it by the entry of the mask it made by scattering ones at the row's move indices into zeros, and replaces a product
  that is exactly zero by `-∞`. Where every move index is non-negative the scattered mask is the specification's
  legality mask, so the result is the specification's.
-/
import proofs.«429774_j24103356465499_1_alg».proof.Proof.Gen.ReferenceIdeal.Read
import proofs.«429774_j24103356465499_1_alg».proof.Proof.Spec
import proofs.«429774_j24103356465499_1_alg».proof.Proof.LogitsRef
import proofs.«429774_j24103356465499_1_alg».proof.Proof.RefMask

noncomputable section

open Idealize.ShloMosaic Idealize.ShloMosaic.TcCoe Idealize.SL.Sem

namespace Cert.ReferenceIdeal.RefValue

open Cert.ReferenceIdeal Cert.ReferenceIdeal.Read Idealize.ShloMosaic.ValueIdx

/-- The reference's last stage at an index: its logit stage and its mask stage there, combined. -/
theorem v47_combine (x0 : (⟨S16384x400, .f32⟩ : BufTy).Contents (Elt Ideal)) (x1 : (⟨S16384x64, .i32⟩ : BufTy).Contents (Elt Ideal)) (x2 : (⟨S24x400, .f32⟩ : BufTy).Contents (Elt Ideal)) (x3 : (⟨S24, .f32⟩ : BufTy).Contents (Elt Ideal)) (x4 : (⟨S24x24, .f32⟩ : BufTy).Contents (Elt Ideal)) (x5 : (⟨S24, .f32⟩ : BufTy).Contents (Elt Ideal)) (x6 : (⟨S24x24, .f32⟩ : BufTy).Contents (Elt Ideal)) (x7 : (⟨S24, .f32⟩ : BufTy).Contents (Elt Ideal)) (x8 : (⟨S24x24, .f32⟩ : BufTy).Contents (Elt Ideal)) (x9 : (⟨S24, .f32⟩ : BufTy).Contents (Elt Ideal)) (x10 : (⟨S4096x24, .f32⟩ : BufTy).Contents (Elt Ideal)) (x11 : (⟨S4096, .f32⟩ : BufTy).Contents (Elt Ideal)) (x12 : (⟨S4096x24, .f32⟩ : BufTy).Contents (Elt Ideal)) (x13 : (⟨S4096, .f32⟩ : BufTy).Contents (Elt Ideal)) (x14 : (⟨S4096x24, .f32⟩ : BufTy).Contents (Elt Ideal)) (x15 : (⟨S4096, .f32⟩ : BufTy).Contents (Elt Ideal)) (i : S16384x4096.Idx) :
    val_main_v47 (F := Ideal) x0 x1 x2 x3 x4 x5 x6 x7 x8 x9 x10 x11 x12 x13 x14 x15 i
      = Cert.Spec.combine (val_main_v24 (F := Ideal) x0 x2 x3 x4 x5 x6 x7 x8 x9 x10 x11 x12 x13 x14 x15 i) (val_main_v43 (F := Ideal) x1 i) := by
  rw [val_main_v47_apply, val_main_v46_apply, val_main_v44_apply, val_main_v45_apply, val_main_cst_4_apply,
    val_main_call2_v1_apply, val_main_call2_v0_apply, val_main_cst_5_apply]
  rfl

/-- THE REFERENCE'S RESULT is the specification's, where every move index is non-negative. -/
theorem v47_apply (x0 : (⟨S16384x400, .f32⟩ : BufTy).Contents (Elt Ideal)) (x1 : (⟨S16384x64, .i32⟩ : BufTy).Contents (Elt Ideal)) (x2 : (⟨S24x400, .f32⟩ : BufTy).Contents (Elt Ideal)) (x3 : (⟨S24, .f32⟩ : BufTy).Contents (Elt Ideal)) (x4 : (⟨S24x24, .f32⟩ : BufTy).Contents (Elt Ideal)) (x5 : (⟨S24, .f32⟩ : BufTy).Contents (Elt Ideal)) (x6 : (⟨S24x24, .f32⟩ : BufTy).Contents (Elt Ideal)) (x7 : (⟨S24, .f32⟩ : BufTy).Contents (Elt Ideal)) (x8 : (⟨S24x24, .f32⟩ : BufTy).Contents (Elt Ideal)) (x9 : (⟨S24, .f32⟩ : BufTy).Contents (Elt Ideal)) (x10 : (⟨S4096x24, .f32⟩ : BufTy).Contents (Elt Ideal)) (x11 : (⟨S4096, .f32⟩ : BufTy).Contents (Elt Ideal)) (x12 : (⟨S4096x24, .f32⟩ : BufTy).Contents (Elt Ideal)) (x13 : (⟨S4096, .f32⟩ : BufTy).Contents (Elt Ideal)) (x14 : (⟨S4096x24, .f32⟩ : BufTy).Contents (Elt Ideal)) (x15 : (⟨S4096, .f32⟩ : BufTy).Contents (Elt Ideal))
    (hpm : ∀ (n : Fin 16384) (k : Fin 64), 0 ≤ (x1 (ix2 n k)).toInt) (i : S16384x4096.Idx) :
    val_main_v47 (F := Ideal) x0 x1 x2 x3 x4 x5 x6 x7 x8 x9 x10 x11 x12 x13 x14 x15 i
      = Cert.Spec.out ⟨x2, x3, x4, x5, x6, x7, x8, x9, x10, x11, x12, x13, x14, x15⟩ x0 x1 i := by
  obtain ⟨n, q, rfl⟩ : ∃ (n : Fin 16384) (q : Fin 4096), i = ix2 n q := ⟨i 0, i 1, eq_ix2 i⟩
  rw [v47_combine, LogitsR.v24_apply, RefMask.v43_apply x1 hpm]
  rfl

end Cert.ReferenceIdeal.RefValue

end
-- ==== Proof.PreDecode.lean ====
/-
  One conjunct of the precondition, read back.

  The precondition is a conjunction of sixteen one-bit scalars: fifteen "every entry of this float array is finite"
  and, last, "every entry of `possible_moves` is nonnegative" (a signed comparison `≥ 0` of each entry, reduced by
  `and` over both axes). The conjunction is a left-nested chain of `and`s whose outermost right operand is that last
  reduction, so when the whole is `1` the last reduction is `1`; a reduction by `and` that is `1` met only `1`s; and
  the signed comparison `a ≥ 0` being `1` says `0 ≤ a` for the word read as a signed integer.
-/
import proofs.«429774_j24103356465499_1_alg».proof.Pre_finite_inputs
import Idealize.ShloMosaic.Lib.ReduceAll
import Idealize.ShloMosaic.Lib.ValueIdx

namespace Cert.PreDecode
open Idealize.ShloMosaic Idealize.ShloMosaic.ValueIdx Cert.Pre_finite_inputs
variable [Cert.Pre_finite_inputs.Facts]

/-- Under the precondition every entry of `possible_moves`, read as a signed integer, is nonnegative. -/
theorem pm_nonneg {F : FTy → Type} [FloatOps F]
    (a0 : FVec F S16384x400 .f32) (a1 : IVec S16384x64 32) (a2 : FVec F S24x400 .f32) (a3 : FVec F S24 .f32) (a4 : FVec F S24x24 .f32) (a5 : FVec F S24 .f32) (a6 : FVec F S24x24 .f32) (a7 : FVec F S24 .f32) (a8 : FVec F S24x24 .f32) (a9 : FVec F S24 .f32) (a10 : FVec F S4096x24 .f32) (a11 : FVec F S4096 .f32) (a12 : FVec F S4096x24 .f32) (a13 : FVec F S4096 .f32) (a14 : FVec F S4096x24 .f32) (a15 : FVec F S4096 .f32)
    (h : Cert.Pre_finite_inputs.fn (F := F) a0 a1 a2 a3 a4 a5 a6 a7 a8 a9 a10 a11 a12 a13 a14 a15 = fun _ => 1#1)
    (n : Fin 16384) (k : Fin 64) : 0 ≤ (a1 (ix2 n k)).toInt := by
  -- the conjunction at the scalar shape's one index
  have h0 := congrFun h ix0
  -- its outermost `and`: the right operand is the reduction over `possible_moves ≥ 0`
  obtain ⟨-, h1⟩ := IntOp.andi_eq_one.1 (show IntOp.andi _ _ = 1#1 from h0)
  -- the scalar shape has exactly one index, so every entry reduces into it:
  -- a reduction by `and` over all axes that is `1` has a `1` at every index
  haveI : Subsingleton S_.Idx := ⟨fun _ _ => funext fun d => d.elim0⟩
  have h2 := Host.reduce_andi_all _ _ _ _ _ h1 (ix2 n k)
  -- the signed comparison with the broadcast zero word
  have h3 := IntOp.cmpi_sge.1 h2
  exact h3

end Cert.PreDecode
-- ==== Proof.lean ====
/-
  A three-layer perceptron with "noisy" second and third layers, evaluated on 16384 rows, whose 4096 logits per row
  are filtered by the row's legal moves: the result keeps a logit where the column is one of the row's 64 move
  indices and the logit is not zero, and is `-∞` elsewhere.

  The kernel computes each block of 256 rows in one grid point: three matrix products with biases and rectifiers for
  the logits, and a 0/1 mask built in a scratch by 64 passes, each comparing the column index with one column of the
  block's move indices and taking the maximum with the mask so far. The reference computes the same logits on the
  whole array and scatters ones at `(row, move index)` into an array of zeros. Over the extended reals both are the
  function `Cert.Spec.out` of the sixteen argument arrays: the logits are the same sums term by term, so no law of
  arithmetic beyond that is used and the finiteness of the float inputs is never opened; the two masks agree where
  every move index is non-negative (a negative index wraps around in the reference's indexing and matches nothing in
  the kernel's comparison), which is the precondition's last conjunct.

  The three programs' runs are the generated ones (the kernel's frame at both instances, the reference's run read back);
  the idealized kernel's result array and the reference's result are each shown to be `Cert.Spec.out` of the arguments
  (Proof/KernelValue.lean, Proof/RefValue.lean), and the claims are assembled here.
-/
import proofs.«429774_j24103356465499_1_alg».proof.Defs
import proofs.«429774_j24103356465499_1_alg».proof.Proof.Gen.Kernel
import proofs.«429774_j24103356465499_1_alg».proof.Proof.Gen.Kernel.Skeleton
import proofs.«429774_j24103356465499_1_alg».proof.Proof.Gen.Kernel.Launch
import proofs.«429774_j24103356465499_1_alg».proof.Proof.Gen.Kernel.Points
import proofs.«429774_j24103356465499_1_alg».proof.Proof.Gen.Kernel.Frame
import proofs.«429774_j24103356465499_1_alg».proof.Proof.Gen.KernelIdeal
import proofs.«429774_j24103356465499_1_alg».proof.Proof.Gen.KernelIdeal.Skeleton
import proofs.«429774_j24103356465499_1_alg».proof.Proof.Gen.KernelIdeal.Launch
import proofs.«429774_j24103356465499_1_alg».proof.Proof.Gen.KernelIdeal.Points
import proofs.«429774_j24103356465499_1_alg».proof.Proof.Gen.KernelIdeal.Frame
import proofs.«429774_j24103356465499_1_alg».proof.Proof.Gen.ReferenceIdeal
import proofs.«429774_j24103356465499_1_alg».proof.Proof.Gen.Pre_finite_inputs
import proofs.«429774_j24103356465499_1_alg».proof.Proof.Gen.KernelIdeal.Value
import proofs.«429774_j24103356465499_1_alg».proof.Proof.Gen.ReferenceIdeal.Run
import proofs.«429774_j24103356465499_1_alg».proof.Proof.Gen.ReferenceIdeal.Read
import proofs.«429774_j24103356465499_1_alg».proof.Proof.KernelValue
import proofs.«429774_j24103356465499_1_alg».proof.Proof.RefValue
import proofs.«429774_j24103356465499_1_alg».proof.Proof.PreDecode
import Idealize.ShloMosaic.Adequacy
import Idealize.ShloMosaic.Init

noncomputable section

namespace Cert.Proof

open Idealize.ShloMosaic Idealize.SL.Sem Idealize.ShloMosaic.ValueIdx

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the sixteen arguments, with every move index non-negative, both programs end at
    `Cert.Spec.out` of the arguments. -/
theorem algebraic : Cert.algebraic_KernelIdeal_ReferenceIdeal := by
  intro m ρ m' ρ' hpre hagree
  refine ⟨fun c => Cert.KernelIdeal.ValueK.G m c, Cert.KernelIdeal.ValueK.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  have hpm : ∀ (n : Fin 16384) (k : Fin 64),
      0 ≤ ((m' ((c.tc : Thread Cert.ReferenceIdeal.nD Cert.ReferenceIdeal.τ).loc Cert.ReferenceIdeal.main_arg1)) (ix2 n k)).toInt := by
    intro n k
    rw [h1]
    exact Cert.PreDecode.pm_nonneg _ _ _ _ _ _ _ _ _ _ _ _ _ _ _ _ (hpre c) n k
  rw [Cert.ReferenceIdeal.Read.val_main_v47_eq]
  funext i
  rw [Cert.ReferenceIdeal.RefValue.v47_apply _ _ _ _ _ _ _ _ _ _ _ _ _ _ _ _ hpm i]
  rw [h0, h1, h2, h3, h4, h5, h6, h7, h8, h9, h10, h11, h12, h13, h14, h15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
